-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.truncf_extf.Statement Cert.KernelIdeal.S1000x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_arg7 : FVec F S128 .f32) (main_arg8 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : IVec S50000 32) (main_arg3 : FVec F S128x256 .f32) (main_arg4 : FVec F S256 .f32) (main_arg5 : FVec F S256x128 .f32) (main_arg6 : FVec F S128 .f32) (main_arg7 : FVec F S128 .f32) (main_arg8 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg6 main_arg7 main_arg8 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50x1x1000 : Shape := ⟨3, ![50, 1, 1000]⟩
abbrev S1x256 : Shape := ⟨2, ![1, 256]⟩
abbrev S1x128 : Shape := ⟨2, ![1, 128]⟩
abbrev S2x512x128 : Shape := ⟨3, ![2, 512, 128]⟩
abbrev S1000x128 : Shape := ⟨2, ![1000, 128]⟩
abbrev S1x1x1000 : Shape := ⟨3, ![1, 1, 1000]⟩
abbrev S1x512x128 : Shape := ⟨3, ![1, 512, 128]⟩
abbrev S512x128 : Shape := ⟨2, ![512, 128]⟩
abbrev S1000x256 : Shape := ⟨2, ![1000, 256]⟩
abbrev S1x1000 : Shape := ⟨2, ![1, 1000]⟩
abbrev S512x1000 : Shape := ⟨2, ![512, 1000]⟩
abbrev S512 : Shape := ⟨1, ![512]⟩
abbrev S50000x1 : Shape := ⟨2, ![50000, 1]⟩
abbrev S512x1 : Shape := ⟨2, ![512, 1]⟩

abbrev nBuf : Space → Nat
  | .hbm => 91
  | .vmem => 12
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S_, .f32⟩
  | .hbm, ⟨23, _⟩ => ⟨S50000x128, .f32⟩
  | .hbm, ⟨24, _⟩ => ⟨S800000x1, .i32⟩
  | .hbm, ⟨25, _⟩ => ⟨S50000x128, .f32⟩
  | .hbm, ⟨26, _⟩ => ⟨S50x1x1000, .i32⟩
  | .hbm, ⟨27, _⟩ => ⟨S1x256, .f32⟩
  | .hbm, ⟨28, _⟩ => ⟨S1x128, .f32⟩
  | .hbm, ⟨29, _⟩ => ⟨S2x512x128, .f32⟩
  | .hbm, ⟨30, _⟩ => ⟨S_, .f32⟩
  | .hbm, ⟨31, _⟩ => ⟨S512x128, .f32⟩
  | .hbm, ⟨32, _⟩ => ⟨S_, .f32⟩
  | .hbm, ⟨33, _⟩ => ⟨S50000, .f32⟩
  | .hbm, ⟨34, _⟩ => ⟨S_, .f32⟩
  | .hbm, ⟨35, _⟩ => ⟨S512, .f32⟩
  | .hbm, ⟨36, _⟩ => ⟨S50000x1, .i32⟩
  | .hbm, ⟨37, _⟩ => ⟨S512, .f32⟩
  | .hbm, ⟨38, _⟩ => ⟨S_, .f32⟩
  | .hbm, ⟨39, _⟩ => ⟨S512, .f32⟩
  | .hbm, ⟨40, _⟩ => ⟨S512, .f32⟩
  | .hbm, ⟨41, _⟩ => ⟨S512x1, .f32⟩
  | .hbm, ⟨42, _⟩ => ⟨S512x128, .f32⟩
  | .hbm, ⟨43, _⟩ => ⟨S512x128, .f32⟩
  | .hbm, ⟨44, _⟩ => ⟨S_, .f32⟩
  | .hbm, ⟨45, _⟩ => ⟨S128, .f32⟩
  | .hbm, ⟨46, _⟩ => ⟨S_, .f32⟩
  | .hbm, ⟨47, _⟩ => ⟨S128, .f32⟩
  | .hbm, ⟨48, _⟩ => ⟨S128, .f32⟩
  | .hbm, ⟨49, _⟩ => ⟨S_, .i32⟩
  | .hbm, ⟨50, _⟩ => ⟨S_, .f32⟩
  | .hbm, ⟨51, _⟩ => ⟨S128, .f32⟩
  | .hbm, ⟨52, _⟩ => ⟨S1x128, .f32⟩
  | .hbm, ⟨53, _⟩ => ⟨S_, .f32⟩
  | .hbm, ⟨54, _⟩ => ⟨S1x128, .f32⟩
  | .hbm, ⟨55, _⟩ => ⟨S1x128, .f32⟩
  | .hbm, ⟨56, _⟩ => ⟨S512x128, .f32⟩
  | .hbm, ⟨57, _⟩ => ⟨S512x128, .f32⟩
  | .hbm, ⟨58, _⟩ => ⟨S512x128, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S128, .f32⟩
  | .hbm, ⟨64, _⟩ => ⟨S128, .f32⟩
  | .hbm, ⟨65, _⟩ => ⟨S128, .f32⟩
  | .hbm, ⟨66, _⟩ => ⟨S_, .f32⟩
  | .hbm, ⟨67, _⟩ => ⟨S_, .i1⟩
  | .hbm, ⟨68, _⟩ => ⟨S_, .f32⟩
  | .hbm, ⟨69, _⟩ => ⟨S_, .f32⟩
  | .hbm, ⟨70, _⟩ => ⟨S128, .f32⟩
  | .hbm, ⟨71, _⟩ => ⟨S128, .f32⟩
  | .hbm, ⟨72, _⟩ => ⟨S1x128, .f32⟩
  | .hbm, ⟨73, _⟩ => ⟨S512x128, .f32⟩
  | .hbm, ⟨74, _⟩ => ⟨S512x128, .f32⟩
  | .hbm, ⟨75, _⟩ => ⟨S_, .f32⟩
  | .hbm, ⟨76, _⟩ => ⟨S128, .f32⟩
  | .hbm, ⟨77, _⟩ => ⟨S128, .f32⟩
  | .hbm, ⟨78, _⟩ => ⟨S128, .f32⟩
  | .hbm, ⟨79, _⟩ => ⟨S1x128, .f32⟩
  | .hbm, ⟨80, _⟩ => ⟨S512x128, .f32⟩
  | .hbm, ⟨81, _⟩ => ⟨S512x128, .f32⟩
  | .hbm, ⟨82, _⟩ => ⟨S1x128, .f32⟩
  | .hbm, ⟨83, _⟩ => ⟨S512x128, .f32⟩
  | .hbm, ⟨84, _⟩ => ⟨S512x128, .f32⟩
  | .hbm, ⟨85, _⟩ => ⟨S1x128, .f32⟩
  | .hbm, ⟨86, _⟩ => ⟨S512x128, .f32⟩
  | .hbm, ⟨87, _⟩ => ⟨S512x128, .f32⟩
  | .hbm, ⟨88, _⟩ => ⟨S_, .f32⟩
  | .hbm, ⟨89, _⟩ => ⟨S512x128, .f32⟩
  | .hbm, ⟨90, _⟩ => ⟨S512x128, .f32⟩
  | .local _ .vmem, ⟨0, _⟩ => ⟨S1000x128, .f32⟩
  | .local _ .vmem, ⟨1, _⟩ => ⟨S1000x128, .f32⟩
  | .local _ .vmem, ⟨2, _⟩ => ⟨S1000x128, .f32⟩
  | .local _ .vmem, ⟨3, _⟩ => ⟨S1000x128, .f32⟩
  | .local _ .vmem, ⟨4, _⟩ => ⟨S1x1x1000, .i32⟩
  | .local _ .vmem, ⟨5, _⟩ => ⟨S1x1x1000, .i32⟩
  | .local _ .vmem, ⟨6, _⟩ => ⟨S128x256, .f32⟩
  | .local _ .vmem, ⟨7, _⟩ => ⟨S1x256, .f32⟩
  | .local _ .vmem, ⟨8, _⟩ => ⟨S256x128, .f32⟩
  | .local _ .vmem, ⟨9, _⟩ => ⟨S1x128, .f32⟩
  | .local _ .vmem, ⟨10, _⟩ => ⟨S1x512x128, .f32⟩
  | .local _ .vmem, ⟨11, _⟩ => ⟨S1x512x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_v30 : Ref sig .tc := ⟨.hbm, 48, rfl⟩
abbrev main_c_7 : Ref sig .tc := ⟨.hbm, 49, rfl⟩
abbrev main_call0_cst : Ref sig .tc := ⟨.hbm, 50, rfl⟩
abbrev main_call0_v0 : Ref sig .tc := ⟨.hbm, 51, rfl⟩
abbrev main_call0_v1 : Ref sig .tc := ⟨.hbm, 52, rfl⟩
abbrev main_call0_cst_0 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_v5 : Ref sig .tc := ⟨.hbm, 57, rfl⟩
abbrev main_call0_v6 : Ref sig .tc := ⟨.hbm, 58, rfl⟩
abbrev main_call0_v7 : Ref sig .tc := ⟨.hbm, 59, rfl⟩
abbrev main_call0_cst_1 : Ref sig .tc := ⟨.hbm, 60, rfl⟩
abbrev main_call0_v8 : Ref sig .tc := ⟨.hbm, 61, rfl⟩
abbrev main_call0_cst_2 : Ref sig .tc := ⟨.hbm, 62, rfl⟩
abbrev main_call0_v9 : Ref sig .tc := ⟨.hbm, 63, rfl⟩
abbrev main_call0_v10 : Ref sig .tc := ⟨.hbm, 64, rfl⟩
abbrev main_call0_v11 : Ref sig .tc := ⟨.hbm, 65, rfl⟩
abbrev main_call0_cst_3 : Ref sig .tc := ⟨.hbm, 66, rfl⟩
abbrev main_call0_v12 : Ref sig .tc := ⟨.hbm, 67, rfl⟩
abbrev main_call0_cst_4 : Ref sig .tc := ⟨.hbm, 68, rfl⟩
abbrev main_call0_call0_v0 : Ref sig .tc := ⟨.hbm, 69, rfl⟩
abbrev main_call0_call0_v1 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_cst_8 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_cst_9 : Ref sig .tc := ⟨.hbm, 88, rfl⟩
abbrev main_v47 : Ref sig .tc := ⟨.hbm, 89, rfl⟩
abbrev main_v48 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 25], ![false, false]⟩

def cc0_transform_0 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1000 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S50000_S50x1x1000 : S50000.ShapeCasts S50x1x1000
  shapeCasts_S256_S1x256 : S256.ShapeCasts S1x256
  shapeCasts_S128_S1x128 : S128.ShapeCasts S1x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S256x128_S256x128_0_0 : ∀ a, (![0, 0] : Fin 2 → Nat) a + S256x128.size a ≤ S256x128.size a
  h_S256x128 : 0 < S256x128.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S1x1x1000_S1x1x1000_0_0_0 : ∀ a, (![0, 0, 0] : Fin 3 → Nat) a + S1x1x1000.size a ≤ S1x1x1000.size a
  h_S1x1x1000 : 0 < S1x1x1000.numel
  shapeCasts_S1x1x1000_S1x1000 : S1x1x1000.ShapeCasts S1x1000
  iota_S512x1000_d0_w32 : S512x1000.Iotas .tc 32 [0]
  broadcasts_S1x1000_S512x1000 : S1x1000.Broadcasts S512x1000
  reducesTo_S2x512x128_S512x128_d0 : S2x512x128.ReducesTo [0] S512x128
  h_S_ : 0 < S_.numel
  bcast_S_S50000 : S_.BroadcastsInDim S50000 (![] : Fin 0 → Fin S50000.rank)
  bcast_S_S512 : S_.BroadcastsInDim S512 (![] : Fin 0 → Fin S512.rank)
  bcast_S50000_S50000x1_0 : S50000.BroadcastsInDim S50000x1 (![0] : Fin 1 → Fin S50000x1.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  reducesTo_S512x128_S128_d0 : S512x128.ReducesTo [0] S128
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S512x128_0_1 : S1x128.BroadcastsInDim S512x128 (![0, 1] : Fin 2 → Fin S512x128.rank)
  bcast_S_S512x128 : S_.BroadcastsInDim S512x128 (![] : Fin 0 → Fin S512x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S1000x128_S128x256_S1000x256_1_0_0_1_n_n_wf : DotDims.WF S1000x128 S128x256 S1000x256 [1] [0] [0] [1] [] []
  dot_S1000x256_S256x128_S1000x128_1_0_0_1_n_n_wf : DotDims.WF S1000x256 S256x128 S1000x128 [1] [0] [0] [1] [] []
  dot_S512x1000_S1000x128_S512x128_1_0_0_1_n_n_wf : DotDims.WF S512x1000 S1000x128 S512x128 [1] [0] [0] [1] [] []
  scatter_S512_S50000x1_S50000_n_0_0_1_wf : ScatterDims.WF S512 S50000x1 S50000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S50000x128.size a
  hwx0_0 : ∀ i : grid0.Coords, EltTy.bits .f32 = 32 ∨ (Rect.block (s := S50000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S50000x128.size a
  hwx0_1 : ∀ i : grid0.Coords, EltTy.bits .f32 = 32 ∨ (Rect.block (s := S50000x128) S1000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1000.size a ≤ S50x1x1000.size a
  hwx0_2 : ∀ i : grid0.Coords, EltTy.bits .i32 = 32 ∨ (Rect.block (s := S50x1x1000) S1x1x1000.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x128.size a ≤ S2x512x128.size a
  hwx0_7 : ∀ i : grid0.Coords, EltTy.bits .f32 = 32 ∨ (Rect.block (s := S2x512x128) S1x512x128.size (cc0_transform_7 i) (hinb0_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S1000x128_S128x256_S1000x256_1_0_0_1_n_n : DotDims S1000x128 S128x256 S1000x256 where
  lhsContracting := [1]
  rhsContracting := [0]
  lhsNonContracting := [0]
  rhsNonContracting := [1]
  lhsBatch := []
  rhsBatch := []
  wf := dot_S1000x128_S128x256_S1000x256_1_0_0_1_n_n_wf
def dot_S1000x256_S256x128_S1000x128_1_0_0_1_n_n : DotDims S1000x256 S256x128 S1000x128 where
  lhsContracting := [1]
  rhsContracting := [0]
  lhsNonContracting := [0]
  rhsNonContracting := [1]
  lhsBatch := []
  rhsBatch := []
  wf := dot_S1000x256_S256x128_S1000x128_1_0_0_1_n_n_wf
def dot_S512x1000_S1000x128_S512x128_1_0_0_1_n_n : DotDims S512x1000 S1000x128 S512x128 where
  lhsContracting := [1]
  rhsContracting := [0]
  lhsNonContracting := [0]
  rhsNonContracting := [1]
  lhsBatch := []
  rhsBatch := []
  wf := dot_S512x1000_S1000x128_S512x128_1_0_0_1_n_n_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x1x1000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S1x512x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x256 : Shape := ⟨2, ![50000, 256]⟩
abbrev S1x256 : Shape := ⟨2, ![1, 256]⟩
abbrev S1x128 : Shape := ⟨2, ![1, 128]⟩
abbrev S512x128 : Shape := ⟨2, ![512, 128]⟩
abbrev S50000x1 : Shape := ⟨2, ![50000, 1]⟩
abbrev S512 : Shape := ⟨1, ![512]⟩
abbrev S512x1 : Shape := ⟨2, ![512, 1]⟩

abbrev nBuf : Space → Nat
  | .hbm => 101
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S_, .f32⟩
  | .hbm, ⟨23, _⟩ => ⟨S50000x128, .f32⟩
  | .hbm, ⟨24, _⟩ => ⟨S800000x1, .i32⟩
  | .hbm, ⟨25, _⟩ => ⟨S50000x128, .f32⟩
  | .hbm, ⟨26, _⟩ => ⟨S50000x128, .f32⟩
  | .hbm, ⟨27, _⟩ => ⟨S50000x256, .f32⟩
  | .hbm, ⟨28, _⟩ => ⟨S1x256, .f32⟩
  | .hbm, ⟨29, _⟩ => ⟨S50000x256, .f32⟩
  | .hbm, ⟨30, _⟩ => ⟨S50000x256, .f32⟩
  | .hbm, ⟨31, _⟩ => ⟨S_, .f32⟩
  | .hbm, ⟨32, _⟩ => ⟨S50000x256, .f32⟩
  | .hbm, ⟨33, _⟩ => ⟨S50000x256, .f32⟩
  | .hbm, ⟨34, _⟩ => ⟨S50000x128, .f32⟩
  | .hbm, ⟨35, _⟩ => ⟨S1x128, .f32⟩
  | .hbm, ⟨36, _⟩ => ⟨S50000x128, .f32⟩
  | .hbm, ⟨37, _⟩ => ⟨S50000x128, .f32⟩
  | .hbm, ⟨38, _⟩ => ⟨S_, .f32⟩
  | .hbm, ⟨39, _⟩ => ⟨S512x128, .f32⟩
  | .hbm, ⟨40, _⟩ => ⟨S50000x1, .i32⟩
  | .hbm, ⟨41, _⟩ => ⟨S512x128, .f32⟩
  | .hbm, ⟨42, _⟩ => ⟨S_, .f32⟩
  | .hbm, ⟨43, _⟩ => ⟨S50000, .f32⟩
  | .hbm, ⟨44, _⟩ => ⟨S_, .f32⟩
  | .hbm, ⟨45, _⟩ => ⟨S512, .f32⟩
  | .hbm, ⟨46, _⟩ => ⟨S50000x1, .i32⟩
  | .hbm, ⟨47, _⟩ => ⟨S512, .f32⟩
  | .hbm, ⟨48, _⟩ => ⟨S_, .f32⟩
  | .hbm, ⟨49, _⟩ => ⟨S512, .f32⟩
  | .hbm, ⟨50, _⟩ => ⟨S512, .f32⟩
  | .hbm, ⟨51, _⟩ => ⟨S512x1, .f32⟩
  | .hbm, ⟨52, _⟩ => ⟨S512x128, .f32⟩
  | .hbm, ⟨53, _⟩ => ⟨S512x128, .f32⟩
  | .hbm, ⟨54, _⟩ => ⟨S_, .f32⟩
  | .hbm, ⟨55, _⟩ => ⟨S128, .f32⟩
  | .hbm, ⟨56, _⟩ => ⟨S_, .f32⟩
  | .hbm, ⟨57, _⟩ => ⟨S128, .f32⟩
  | .hbm, ⟨58, _⟩ => ⟨S128, .f32⟩
  | .hbm, ⟨59, _⟩ => ⟨S_, .i32⟩
  | .hbm, ⟨60, _⟩ => ⟨S_, .f32⟩
  | .hbm, ⟨61, _⟩ => ⟨S128, .f32⟩
  | .hbm, ⟨62, _⟩ => ⟨S1x128, .f32⟩
  | .hbm, ⟨63, _⟩ => ⟨S_, .f32⟩
  | .hbm, ⟨64, _⟩ => ⟨S1x128, .f32⟩
  | .hbm, ⟨65, _⟩ => ⟨S1x128, .f32⟩
  | .hbm, ⟨66, _⟩ => ⟨S512x128, .f32⟩
  | .hbm, ⟨67, _⟩ => ⟨S512x128, .f32⟩
  | .hbm, ⟨68, _⟩ => ⟨S512x128, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S128, .f32⟩
  | .hbm, ⟨74, _⟩ => ⟨S128, .f32⟩
  | .hbm, ⟨75, _⟩ => ⟨S128, .f32⟩
  | .hbm, ⟨76, _⟩ => ⟨S_, .f32⟩
  | .hbm, ⟨77, _⟩ => ⟨S_, .i1⟩
  | .hbm, ⟨78, _⟩ => ⟨S_, .f32⟩
  | .hbm, ⟨79, _⟩ => ⟨S_, .f32⟩
  | .hbm, ⟨80, _⟩ => ⟨S128, .f32⟩
  | .hbm, ⟨81, _⟩ => ⟨S128, .f32⟩
  | .hbm, ⟨82, _⟩ => ⟨S1x128, .f32⟩
  | .hbm, ⟨83, _⟩ => ⟨S512x128, .f32⟩
  | .hbm, ⟨84, _⟩ => ⟨S512x128, .f32⟩
  | .hbm, ⟨85, _⟩ => ⟨S_, .f32⟩
  | .hbm, ⟨86, _⟩ => ⟨S128, .f32⟩
  | .hbm, ⟨87, _⟩ => ⟨S128, .f32⟩
  | .hbm, ⟨88, _⟩ => ⟨S128, .f32⟩
  | .hbm, ⟨89, _⟩ => ⟨S1x128, .f32⟩
  | .hbm, ⟨90, _⟩ => ⟨S512x128, .f32⟩
  | .hbm, ⟨91, _⟩ => ⟨S512x128, .f32⟩
  | .hbm, ⟨92, _⟩ => ⟨S1x128, .f32⟩
  | .hbm, ⟨93, _⟩ => ⟨S512x128, .f32⟩
  | .hbm, ⟨94, _⟩ => ⟨S512x128, .f32⟩
  | .hbm, ⟨95, _⟩ => ⟨S1x128, .f32⟩
  | .hbm, ⟨96, _⟩ => ⟨S512x128, .f32⟩
  | .hbm, ⟨97, _⟩ => ⟨S512x128, .f32⟩
  | .hbm, ⟨98, _⟩ => ⟨S_, .f32⟩
  | .hbm, ⟨99, _⟩ => ⟨S512x128, .f32⟩
  | .hbm, ⟨100, _⟩ => ⟨S512x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_c_8 : Ref sig .tc := ⟨.hbm, 59, rfl⟩
abbrev main_call0_cst : Ref sig .tc := ⟨.hbm, 60, rfl⟩
abbrev main_call0_v0 : Ref sig .tc := ⟨.hbm, 61, rfl⟩
abbrev main_call0_v1 : Ref sig .tc := ⟨.hbm, 62, rfl⟩
abbrev main_call0_cst_0 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_call0_v5 : Ref sig .tc := ⟨.hbm, 67, rfl⟩
abbrev main_call0_v6 : Ref sig .tc := ⟨.hbm, 68, rfl⟩
abbrev main_call0_v7 : Ref sig .tc := ⟨.hbm, 69, rfl⟩
abbrev main_call0_cst_1 : Ref sig .tc := ⟨.hbm, 70, rfl⟩
abbrev main_call0_v8 : Ref sig .tc := ⟨.hbm, 71, rfl⟩
abbrev main_call0_cst_2 : Ref sig .tc := ⟨.hbm, 72, rfl⟩
abbrev main_call0_v9 : Ref sig .tc := ⟨.hbm, 73, rfl⟩
abbrev main_call0_v10 : Ref sig .tc := ⟨.hbm, 74, rfl⟩
abbrev main_call0_v11 : Ref sig .tc := ⟨.hbm, 75, rfl⟩
abbrev main_call0_cst_3 : Ref sig .tc := ⟨.hbm, 76, rfl⟩
abbrev main_call0_v12 : Ref sig .tc := ⟨.hbm, 77, rfl⟩
abbrev main_call0_cst_4 : Ref sig .tc := ⟨.hbm, 78, rfl⟩
abbrev main_call0_call0_v0 : Ref sig .tc := ⟨.hbm, 79, rfl⟩
abbrev main_call0_call0_v1 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_cst_9 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_cst_10 : Ref sig .tc := ⟨.hbm, 98, rfl⟩
abbrev main_v56 : Ref sig .tc := ⟨.hbm, 99, rfl⟩
abbrev main_v57 : Ref sig .tc := ⟨.hbm, 100, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S512x128 : S_.BroadcastsInDim S512x128 (![] : Fin 0 → Fin S512x128.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  reducesTo_S512x128_S128_d0 : S512x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S1x128_S512x128_0_1 : S1x128.BroadcastsInDim S512x128 (![0, 1] : Fin 2 → Fin S512x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  dot_S50000x256_S256x128_S50000x128_1_0_0_1_n_n_wf : DotDims.WF S50000x256 S256x128 S50000x128 [1] [0] [0] [1] [] []
  scatter_S512x128_S50000x1_S50000x128_1_0_0_1_wf : ScatterDims.WF S512x128 S50000x1 S50000x128 [1] [0] [0] 1
  scatter_S512_S50000x1_S50000_n_0_0_1_wf : ScatterDims.WF S512 S50000x1 S50000 [] [0] [0] 1

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf

class Facts : Prop extends Facts₀ where

variable [Facts]
-- ==== Proof.Spec.lean ====
/-
  The mathematics of this certificate, stated once, over the programs' literal shapes.

  A graph block: `x` holds 50000 nodes with 128 features; `edge_index` lists 800000 edges (row 0 the sources, row 1 the
  destinations); `batch` gives each node's graph among 512.

    agg       the messages: row v of `agg` is the sum of the rows `x[src e]` over the edges e with `dst e = v` — a
              gather of rows followed by a scatter that adds rows; both programs compute it with the same host
              operations, so it is carried as ONE function (`agg`) and opened only to see that it is finite.
    h2        the two-layer perceptron of a node: `max((x + agg)·W1 + b1, 0)·W2 + b2`, row by row.
    pooled    per graph g and feature d, the sum of `h2 n d` over the nodes n of graph g.
    tail      what both programs do with the pooled sums: divide by the graph's node count (at least 1), normalise
              each feature over the 512 graphs by its mean and (biased) variance, scale, shift, clamp at zero. Both
              programs apply the same operations, so it is ONE function (`tail`) of the pooled sums, never opened.

  The two programs differ only in how they pool. The reference adds row n of `h2` into row `batch n` (a scatter-add). The
  kernel multiplies, tile by tile, the 0/1 matrix `[g = batch n]` into `h2` — twice: once into `h2` and once into the
  remainder `h2 - h2` of a split of `h2` into a high and a low part, which is zero once `h2` is a real number —, adds the tiles'
  products over the 25 tiles of each of two halves of the nodes, and adds the two halves.
-/
import Idealize.ShloMosaic.PureOps.Ideal
import Idealize.ShloMosaic.PureOps
import Idealize.ShloMosaic.Lib.ValueIdx

noncomputable section

open scoped BigOperators

namespace Cert.Pool

open Idealize.ShloMosaic Idealize.ShloMosaic.ValueIdx

/-! ## Shapes -/

abbrev S0 : Shape := ⟨0, ![]⟩
abbrev SX : Shape := ⟨2, ![50000, 128]⟩
abbrev SE : Shape := ⟨2, ![2, 800000]⟩
abbrev SE1 : Shape := ⟨2, ![1, 800000]⟩
abbrev SEv : Shape := ⟨1, ![800000]⟩
abbrev SEc : Shape := ⟨2, ![800000, 1]⟩
abbrev SM : Shape := ⟨2, ![800000, 128]⟩
abbrev SN : Shape := ⟨1, ![50000]⟩
abbrev SNc : Shape := ⟨2, ![50000, 1]⟩
abbrev SW1 : Shape := ⟨2, ![128, 256]⟩
abbrev SB1 : Shape := ⟨1, ![256]⟩
abbrev SW2 : Shape := ⟨2, ![256, 128]⟩
abbrev SD : Shape := ⟨1, ![128]⟩
abbrev SDr : Shape := ⟨2, ![1, 128]⟩
abbrev SG : Shape := ⟨1, ![512]⟩
abbrev SGc : Shape := ⟨2, ![512, 1]⟩
abbrev SP : Shape := ⟨2, ![512, 128]⟩

/-! ## The dimension numbers of the gathers and scatters -/

/-- Rows of `x` gathered by one row number per edge. -/
def gatherRows : GatherDims SX SEc SM where
  offsetDims := [1]
  collapsedSliceDims := [0]
  operandBatchingDims := []
  startIndicesBatchingDims := []
  startIndexMap := [0]
  indexVectorDim := 1
  sliceSizes := ![1, 128]
  wf := by decide

/-- Rows added into the rows of a node matrix, one row number per edge. -/
def scatterRows : ScatterDims SX SEc SM where
  updateWindowDims := [1]
  insertedWindowDims := [0]
  scatterDimsToOperandDims := [0]
  indexVectorDim := 1
  wf := by decide

/-- Scalars added into a vector over the graphs, one graph number per node. -/
def scatterCount : ScatterDims SG SNc SN where
  updateWindowDims := []
  insertedWindowDims := [0]
  scatterDimsToOperandDims := [0]
  indexVectorDim := 1
  wf := by decide

variable {F : FTy → Type} [FloatOps F]

/-! ## The messages -/

/-- The sources' row numbers as the gather takes them: row 0 of `edge_index`, a negative number counted from the end. -/
def srcIdx (ei : IVec SE 32) : IVec SEc 32 :=
  let s : IVec SEv 32 := fun i => shapeCast SEv (extractStridedSlice SE1 ![0, 0] ei (by decide)) (by decide) i
  broadcastInDim SEc ![0] (by decide)
    (select (cmpi .slt s (broadcastInDim SEv ![] (by decide) (constantI S0 32 0#32)))
      (addi s (broadcastInDim SEv ![] (by decide) (constantI S0 32 50000#32))) s)

/-- The destinations' row numbers as the scatter takes them: row 1 of `edge_index`. -/
def dstIdx (ei : IVec SE 32) : IVec SEc 32 :=
  broadcastInDim SEc ![0] (by decide)
    (fun i => shapeCast SEv (extractStridedSlice SE1 ![1, 0] ei (by decide)) (by decide) i)

/-- The aggregated messages: the sources' rows of `x`, added into the destinations' rows of a zero matrix. -/
def agg (x : FVec F SX .f32) (ei : IVec SE 32) : FVec F SX .f32 :=
  Host.scatterAdd scatterRows (broadcastInDim SX ![] (by decide) (constant S0 .f32 0x00000000#32)) (dstIdx ei)
    (Host.gather gatherRows x (srcIdx ei))

/-! ## What both programs do with the pooled sums -/

/-- The number of nodes of each graph, as a float: ones added by graph number into zeros. -/
def counts (batch : IVec SN 32) : FVec F SG .f32 :=
  Host.scatterAdd scatterCount (broadcastInDim SG ![] (by decide) (constant S0 .f32 0x00000000#32))
    (broadcastInDim SNc ![0] (by decide) batch)
    (broadcastInDim SN ![] (by decide) (constant S0 .f32 0x3F800000#32))

/-- The pooled means: each graph's sums divided by its node count, taken as at least one. -/
def means (sums : FVec F SP .f32) (batch : IVec SN 32) : FVec F SP .f32 :=
  Host.divf sums
    (broadcastInDim SP ![0, 1] (by decide) (broadcastInDim SGc ![0] (by decide)
      (maximumf (counts batch) (broadcastInDim SG ![] (by decide) (constant S0 .f32 0x3F800000#32)))))

/-- A feature's mean over the 512 graphs. -/
def featMean (p : FVec F SP .f32) : FVec F SD .f32 :=
  Host.divf (Host.reduceAdd (axes := [0]) (t := SD) (u := S0) p (constant S0 .f32 0x00000000#32) (by decide) (by decide))
    (broadcastInDim SD ![] (by decide) (constant S0 .f32 0x44000000#32))

/-- A feature's variance over the 512 graphs, with no correction of the degrees of freedom: the mean of the squared
    deviations from the mean, the divisor `512 - 0` (were it not positive the result would be the not-a-number word). -/
def featVar (p : FVec F SP .f32) : FVec F SD .f32 :=
  let mu : FVec F SDr .f32 :=
    Host.divf (broadcastInDim SDr ![1] (by decide)
        (Host.reduceAdd (axes := [0]) (t := SD) (u := S0) p (constant S0 .f32 0x00000000#32) (by decide) (by decide)))
      (broadcastInDim SDr ![] (by decide) (constant S0 .f32 0x44000000#32))
  let dev : FVec F SP .f32 := subf p (broadcastInDim SP ![0, 1] (by decide) mu)
  let n : FVec F S0 .f32 := subf (constant S0 .f32 0x44000000#32) (sitofp .f32 (constantI S0 32 0#32))
  select (broadcastInDim SD ![] (by decide) (cmpf .ogt n (constant S0 .f32 0x00000000#32)))
    (Host.divf (Host.reduceAdd (axes := [0]) (t := SD) (u := S0) (mulf dev dev) (constant S0 .f32 0x00000000#32) (by decide) (by decide))
      (broadcastInDim SD ![] (by decide) n))
    (broadcastInDim SD ![] (by decide) (id (constant S0 .f32 0x7FC00000#32)))

/-- From the pooled sums to the result: the means, normalised feature by feature over the graphs, scaled by `gamma`,
    shifted by `beta`, clamped at zero. -/
def tail (sums : FVec F SP .f32) (batch : IVec SN 32) (gamma beta : FVec F SD .f32) : FVec F SP .f32 :=
  let p : FVec F SP .f32 := means sums batch
  let centred : FVec F SP .f32 :=
    subf p (broadcastInDim SP ![0, 1] (by decide) (broadcastInDim SDr ![1] (by decide) (featMean p)))
  let sd : FVec F SD .f32 :=
    Host.sqrt (addf (featVar p) (broadcastInDim SD ![] (by decide) (constant S0 .f32 0x3727C5AC#32)))
  let normed : FVec F SP .f32 :=
    Host.divf centred (broadcastInDim SP ![0, 1] (by decide) (broadcastInDim SDr ![1] (by decide) sd))
  maximumf
    (addf (mulf normed (broadcastInDim SP ![0, 1] (by decide) (broadcastInDim SDr ![1] (by decide) gamma)))
      (broadcastInDim SP ![0, 1] (by decide) (broadcastInDim SDr ![1] (by decide) beta)))
    (broadcastInDim SP ![] (by decide) (constant S0 .f32 0x00000000#32))

/-! ## The perceptron and the pooling, index by index, on the extended reals -/

/-- The perceptron's output at node `n`, feature `d`: `max((x + a)·W1 + b1, 0)·W2 + b2`. -/
def h2 (x a : FVec Ideal SX .f32) (W1 : FVec Ideal SW1 .f32) (b1 : FVec Ideal SB1 .f32) (W2 : FVec Ideal SW2 .f32)
    (b2 : FVec Ideal SD .f32) (n : Fin 50000) (d : Fin 128) : EReal :=
  (∑ k : Fin 256, max ((∑ j : Fin 128, (x (ix2 n j) + a (ix2 n j)) * W1 (ix2 j k)) + b1 (ix1 k)) 0 * W2 (ix2 k d)) + b2 (ix1 d)

/-- The sum over the nodes of graph `g` of a node function. -/
def pooled (batch : IVec SN 32) (H : Fin 50000 → Fin 128 → EReal) (g : Fin 512) (d : Fin 128) : EReal :=
  ∑ n : Fin 50000, if (batch (ix1 n)).toInt = (g.val : Int) then H n d else 0

end Cert.Pool

end
-- ==== Proof.KerFinal.lean ====
/-
  The idealized kernel's result, read off its frame run.

  The region's output array [2, 512, 128] is written back twice: after the last point of each half of the grid (points
  24 and 49), the output block — the half's accumulator — goes to row 0, respectively row 1, of the array. So the array
  ends holding, at (h, g, d), what the accumulator holds after point 25·h + 24 (`halves`, `final`). The host operations
  after the region add the two rows and apply to the sum the operations that both programs share (`Cert.Pool.tail`).
-/
import proofs.«404856_j52467320488062_3_alg».proof.Proof.Patched.KernelIdeal.Frame
import proofs.«404856_j52467320488062_3_alg».proof.Proof.Spec
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.GenP

variable {F : FTy → Type} [FloatOps F]
variable (m : (ℓ : Loc nD τ sig) → Buf (Elt F) ℓ) (ρ : Dev nD → PrngReg)

/-- The last point of half `h` is a point of the grid. -/
theorem last_lt {h : ℕ} (hh : h < 2) : 25 * h + 24 < cfg0.N :=
  lt_of_lt_of_eq (by omega) (show (50 : ℕ) = cfg0.N from N_0.symm)

/-- The accumulator after equal points. -/
theorem outsAt0_congr (c : Dev nD) {n n' : ℕ} (e : n = n') (h : n < cfg0.N) (h' : n' < cfg0.N) :
    outsAt0 m c n h = outsAt0 m c n' h' := by
  subst e; rfl

/-- What the two halves' accumulators hold after their last points, as one array [2, 512, 128]. -/
def halves (c : Dev nD) : Buf (Elt F) ((c : Thread nD τ).loc main_v17) := fun (j : S2x512x128.Idx) =>
  outsAt0 m c (25 * (j 0).val + 24) (last_lt (j 0).isLt) (ix3 (0 : Fin 1) (j 1) (j 2))

/-- The output window's block index: the half of the grid the point is in. -/
theorem idx7 : ∀ t : Fin cfg0.N, win0_7.index t 0 = t.val / 25 ∧ win0_7.index t 1 = 0 ∧ win0_7.index t 2 = 0 :=
  (by decide +kernel : ∀ t : Fin grid0.N, win0_7.index t 0 = t.val / 25 ∧ win0_7.index t 1 = 0 ∧ win0_7.index t 2 = 0)

/-- What a flushing point writes back is its block of `halves`. -/
theorem flushed_eq (c : Dev nD) (t : Fin cfg0.N) (hf : (cfg0.win 7).flush t = true) :
    (dats m 0 c).flushed 7 t = ((cfg0.win 7).blk t).view.read (Elt F) (halves m c) := by
  have hN : t.val < 50 := lt_of_lt_of_eq t.isLt (show cfg0.N = 50 from N_0)
  have h24 : t.val % 25 = 24 := (flush0_7 t).mp hf
  obtain ⟨i0, i1, i2⟩ := idx7 t
  show (cfg0.win 7).cut (grid0.coords t) ((dats m 0 c).after 7 t) = _
  rw [after0_7]
  funext y
  rw [View.read_apply]
  show outsAt0 m c t.val t.isLt _ = halves m c (((cfg0.win 7).blk t).view.emb y)
  have y0 : (y 0).val = 0 := by have h : (y 0).val < 1 := (y 0).isLt; omega
  have e0 : ((((cfg0.win 7).blk t).view.emb y) 0 : ℕ) = t.val / 25 := by
    show win0_7.index t 0 * 1 + 1 * (y 0).val = _
    rw [i0, y0]; omega
  have e1 : ((((cfg0.win 7).blk t).view.emb y) 1 : ℕ) = (y 1).val := by
    show win0_7.index t 1 * 512 + 1 * (y 1).val = _
    rw [i1]; omega
  have e2 : ((((cfg0.win 7).blk t).view.emb y) 2 : ℕ) = (y 2).val := by
    show win0_7.index t 2 * 128 + 1 * (y 2).val = _
    rw [i2]; omega
  have et : t.val = 25 * ((((cfg0.win 7).blk t).view.emb y) 0).val + 24 := by rw [e0]; omega
  have hlt : 25 * ((((cfg0.win 7).blk t).view.emb y) 0).val + 24 < cfg0.N := by rw [← et]; exact t.isLt
  unfold halves
  refine (congrFun (outsAt0_congr m c et t.isLt hlt) _).trans ?_
  refine congrArg (outsAt0 m c _ hlt) (funext fun a => Fin.ext ?_)
  match a with
  | ⟨0, _⟩ => exact y0
  | ⟨1, _⟩ => exact e1.symm
  | ⟨2, _⟩ => exact e2.symm

/-- The two flushing points' blocks cover the array. -/
theorem cover (c : Dev nD) (i : ((cfg0.win 7).arr.view.loc ((c : Dev nD).tc : Thread nD τ)).2.ty.Idx) :
    ∃ t : Fin cfg0.N, (cfg0.win 7).flush t = true ∧ i ∈ ((cfg0.win 7).blk t).view.set := by
  have h0 : (i 0 : ℕ) < 2 := (i 0).isLt
  have h1 : (i 1 : ℕ) < 512 := (i 1).isLt
  have h2 : (i 2 : ℕ) < 128 := (i 2).isLt
  refine ⟨⟨25 * (i 0).val + 24, last_lt h0⟩, (flush0_7 _).mpr (by show (25 * (i 0).val + 24) % 25 = 24; omega), ?_⟩
  obtain ⟨i0, i1, i2⟩ := idx7 ⟨25 * (i 0).val + 24, last_lt h0⟩
  show i ∈ ((View.whole main_v17).slice (win0_7.rect ⟨25 * (i 0).val + 24, last_lt h0⟩)).set
  rw [View.set_slice_whole, Rect.mem_set_unit]
  intro a
  match a with
  | ⟨0, _⟩ =>
    show win0_7.index _ 0 * 1 ≤ (i 0 : ℕ) ∧ (i 0 : ℕ) < win0_7.index _ 0 * 1 + 1
    rw [i0]; dsimp only; omega
  | ⟨1, _⟩ =>
    show win0_7.index _ 1 * 512 ≤ (i 1 : ℕ) ∧ (i 1 : ℕ) < win0_7.index _ 1 * 512 + 512
    rw [i1]; omega
  | ⟨2, _⟩ =>
    show win0_7.index _ 2 * 128 ≤ (i 2 : ℕ) ∧ (i 2 : ℕ) < win0_7.index _ 2 * 128 + 128
    rw [i2]; omega

/-- The output array after the run: the two halves' accumulators. -/
theorem final (c : Dev nD) : (dats m 0 c).arrAt 7 cfg0.N = halves m c :=
  (dats m 0 c).arrAt_eq_of_cover 7 (halves m c) (flushed_eq m c) (cover c)

/-- The pooled sums as the kernel's program computes them: the two rows of the output array added. -/
def sums (A : FVec F S2x512x128 .f32) : FVec F S512x128 .f32 :=
  Host.reduceAdd A (constant S_ .f32 0x00000000#32) reducesTo_S2x512x128_S512x128_d0 h_S_

/-- The host operations after the region, from any contents `W` of the buffers: the result buffer ends at the shared
    tail of the sum of the two rows of the output array's contents. -/
theorem tail_of (W : Valuation τ sig (Elt F)) :
    StableHlo.after (List.flatten [hostOps1, hostOps1_1, hostOps1_2]) W (Proc.devRef .tc main_v48)
      = Cert.Pool.tail (sums (W (Proc.devRef .tc main_v17))) (W (Proc.devRef .tc main_arg2))
          (W (Proc.devRef .tc main_arg7)) (W (Proc.devRef .tc main_arg8)) := by
  simp only [hostOps1, hostOps1_1, hostOps1_2, List.flatten_cons, List.flatten_nil, List.append_nil, List.cons_append, List.nil_append]
  after_results_simp
  rfl

/-- What the host operations after the region leave in the result buffer: the shared tail of the two rows' sum. -/
theorem tail_eq (c : Dev nD) :
    Pipeline.afterTail₀ cfgs (dats m) 0 (V0 m) [hostOps1, hostOps1_1, hostOps1_2] c main_v48
      = Cert.Pool.tail (sums ((dats m 0 c).arrAt 7 cfg0.N)) (m ((c : Thread nD τ).loc main_arg2))
          (m ((c : Thread nD τ).loc main_arg7)) (m ((c : Thread nD τ).loc main_arg8)) := by
  have h17 : Pipeline.withArrays spec0 c (V0 m c) (fun w => (dats m 0 c).arrAt w cfg0.N) (Proc.devRef .tc main_v17)
      = (dats m 0 c).arrAt 7 cfg0.N :=
    Pipeline.withArrays_arr spec0 launch0.win.arr_inj c (V0 m c) (fun w => (dats m 0 c).arrAt w cfg0.N) 7
  have h2 : Pipeline.withArrays spec0 c (V0 m c) (fun w => (dats m 0 c).arrAt w cfg0.N) (Proc.devRef .tc main_arg2)
      = m ((c : Thread nD τ).loc main_arg2) :=
    (Pipeline.withArrays_of_ne spec0 c (V0 m c) _ main_arg2 (by exact (by decide : ∀ w, Pipeline.arrRef spec0 w ≠ main_arg2))).trans
      (V_main_arg2 m c)
  have h7 : Pipeline.withArrays spec0 c (V0 m c) (fun w => (dats m 0 c).arrAt w cfg0.N) (Proc.devRef .tc main_arg7)
      = m ((c : Thread nD τ).loc main_arg7) :=
    (Pipeline.withArrays_of_ne spec0 c (V0 m c) _ main_arg7 (by exact (by decide : ∀ w, Pipeline.arrRef spec0 w ≠ main_arg7))).trans
      (V_main_arg7 m c)
  have h8 : Pipeline.withArrays spec0 c (V0 m c) (fun w => (dats m 0 c).arrAt w cfg0.N) (Proc.devRef .tc main_arg8)
      = m ((c : Thread nD τ).loc main_arg8) :=
    (Pipeline.withArrays_of_ne spec0 c (V0 m c) _ main_arg8 (by exact (by decide : ∀ w, Pipeline.arrRef spec0 w ≠ main_arg8))).trans
      (V_main_arg8 m c)
  refine (tail_of (Pipeline.withArrays spec0 c (V0 m c) (fun w => (dats m 0 c).arrAt w cfg0.N))).trans ?_
  rw [h17, h2, h7, h8]

/-- THE RUN, READ: the result buffer ends at the shared tail of the two halves' sum, the arguments unchanged. -/
theorem run : θ_run defs (onTc (τ := τ) (main (F := F))) ⟨m, fun _ => 0, ρ⟩ fun r => ∀ c : Dev nD,
      r.2.mem ((c.tc : Thread nD τ).loc main_v48)
        = Cert.Pool.tail (sums (halves m c)) (m ((c.tc : Thread nD τ).loc main_arg2))
            (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun r h c => ⟨?_,
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c)),
      ((h c).1 5).trans (((dats m 0 c).arrAt_in 5 rfl _).trans ((A_eq m c 5).trans (V_main_arg5 m c))),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c))⟩)
    (run_main m ρ)
  exact ((h c).2 main_v48 (Pipeline.mem_restRefs_of main_v48 (by decide) (by decide))).trans
    ((tail_eq m c).trans (by rw [final m c]))

end Cert.KernelIdeal.Final

end
-- ==== Proof.LibDot.lean ====
/-
  A plain matrix product read at an entry.

  For dimension numbers that contract axis 1 of an `M × K` left operand with axis 0 of a `K × N` right operand and
  have no batch axes, the contraction index is one coordinate `k : Fin K`, the left operand is read at `(a, k)` and the
  right operand at `(k, b)`: the sum over the contraction index is `∑ k : Fin K`. At the ideal instance this reads a
  kernel's matrix product into a zero accumulator, and a host program's `dot_general`, at entry `(a, b)`.
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-- The sum over the contraction index of a plain `M × K` by `K × N` product, as a sum over `Fin K`. -/
theorem plain_sum {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    {α : Type} [AddCommMonoid α] (f : (⟨2, ![M, K]⟩ : Shape).Idx → (⟨2, ![K, N]⟩ : Shape).Idx → α) (a : Fin M) (b : Fin N) :
    ∑ k : d.contr.Idx, f (d.lhsIdx (ix2 a b) k) (d.rhsIdx (ix2 a b) k) = ∑ k : Fin K, f (ix2 a k) (ix2 k b) := by
  obtain ⟨lc, rc, ln, rn, lb, rb, wf⟩ := d
  dsimp only at h1 h2 h3 h4 h5 h6
  subst h1 h2 h3 h4 h5 h6
  have hr : (DotDims.mk [1] [0] [0] [1] [] [] wf : DotDims ⟨2, ![M, K]⟩ ⟨2, ![K, N]⟩ ⟨2, ![M, N]⟩).contr.rank = 1 := rfl
  have hs : (DotDims.mk [1] [0] [0] [1] [] [] wf : DotDims ⟨2, ![M, K]⟩ ⟨2, ![K, N]⟩ ⟨2, ![M, N]⟩).contr.size ⟨0, by omega⟩ = K := rfl
  rw [← Equiv.sum_comp (contrEquiv1 _ K hr hs).symm]
  refine Finset.sum_congr rfl fun k _ => ?_
  congr 1
  · funext c
    match c with
    | ⟨0, _⟩ => exact Fin.ext rfl
    | ⟨1, _⟩ => exact Fin.ext rfl
  · funext c
    match c with
    | ⟨0, _⟩ => exact Fin.ext rfl
    | ⟨1, _⟩ => exact Fin.ext rfl

/-- A kernel's matrix product into the zero accumulator, at the ideal instance, at entry `(a, b)`. -/
theorem matmul_zero_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    matmul d prec l r (constant ⟨2, ![M, N]⟩ .f32 0x00000000#32) (ix2 a b) = ∑ k : Fin K, l (ix2 a k) * r (ix2 k b) := by
  show FloatOps.matmul d prec l r (constant ⟨2, ![M, N]⟩ .f32 0x00000000#32) (ix2 a b) = _
  rw [Ideal.matmul_constant_zero_apply]
  exact plain_sum d h1 h2 h3 h4 h5 h6 (fun i j => l i * r j) a b

/-- A host program's `dot_general`, at the ideal instance, at entry `(a, b)`. -/
theorem dotGeneral_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    Host.dotGeneral d prec l r (ix2 a b) = ∑ k : Fin K, l (ix2 a k) * r (ix2 k b) := by
  show FloatOps.dotGeneral d prec .single l r (ix2 a b) = _
  rw [Ideal.dotGeneral_apply]
  exact plain_sum d h1 h2 h3 h4 h5 h6 (fun i j => l i * r j) a b

end Cert.LibDot

end
-- ==== Proof.KerBody.lean ====
/-
  One grid point of the idealized kernel: what it leaves in its output block.

  The kernel's body computes, from a tile of 1000 rows, a two-layer perceptron `h` (a 128 → 256 product, a bias, a
  clamp at zero, a 256 → 128 product, a bias) of the sum of the tile's two inputs, builds the 512 × 1000 matrix whose
  entry (g, r) is 1 where row r carries segment id g and 0 elsewhere, and adds that matrix times `h` — and that matrix
  times the remainder `h - h` of a two-term split of `h` — to the 512 × 128 block it finds. The block it finds is the
  zero block at the first point of a row of the grid (the body stores it there and reads it back), and otherwise what
  the point before left.

  First part: both cases of the body leave `step` of the point's input blocks over the block found, at any float
  instance. Second part: `step` index by index at the ideal instance.
-/
import proofs.«404856_j52467320488062_3_alg».proof.Proof.Patched.KernelIdeal.Frame
import proofs.«404856_j52467320488062_3_alg».proof.Proof.LibDot
import Idealize.ShloMosaic.PureOps.Ideal
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import Idealize.ShloMosaic.Lib.Tactic

noncomputable section

open scoped BigOperators

namespace Cert.KernelIdeal.Body

open Idealize.ShloMosaic Idealize.ShloMosaic.TcCoe Idealize.SL.Sem Idealize.ShloMosaic.ValueIdx
open Cert.KernelIdeal Cert.KernelIdeal.Gen Cert.KernelIdeal.GenP

variable {F : FTy → Type} [FloatOps F]

/-! ## The body's two cases, at any float instance -/

/-- What a grid point stores over the block `prev` it finds: the body's last store's payload over the point's input blocks. -/
def step (x0 x1 : Vec F S1000x128 .f32) (x2 : Vec F S1x1x1000 .i32) (x3 : Vec F S128x256 .f32) (x4 : Vec F S1x256 .f32) (x5 : Vec F S256x128 .f32) (x6 : Vec F S1x128 .f32) (prev : Vec F S1x512x128 .f32) : Vec F S1x512x128 .f32 :=
  k0_pay1 (k0_pay3 x0 x1 x3 x5 x4 x6) (k0_pay4 x2) (k0_pay5 x0 x1 x3 x5 x4 x6) prev

/-- The zero offsets of a rank-2 block. -/
theorem zeros2 : (![0, 0] : Fin 2 → Nat) = fun _ => 0 := funext fun a => by fin_cases a <;> rfl

/-- The zero offsets of a rank-3 block. -/
theorem zeros3 : (![0, 0, 0] : Fin 3 → Nat) = fun _ => 0 := funext fun a => by fin_cases a <;> rfl

/-- The first point of a row of the grid: the body stores the zero block, reads it back, and stores `step` over it.
    Of its two covering stores the later one decides the contents; the block that store's payload adds to is the
    read-back of the earlier one, the zero block; every input is read whole. -/
theorem out_A (c : Dev nD) (i : grid0.Coords) (arg2 : Memref sig .tc .vmem S1000x128 .f32) (harg2 : arg2.IsWhole) (arg3 : Memref sig .tc .vmem S1000x128 .f32) (harg3 : arg3.IsWhole) (arg4 : Memref sig .tc .vmem S1x1x1000 .i32) (harg4 : arg4.IsWhole) (arg5 : Memref sig .tc .vmem S128x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x512x128 .f32) (harg9 : arg9.IsWhole) (hc0 : cond0_0 i)
    (x0 x1 : Vec F S1000x128 .f32) (x2 : Vec F S1x1x1000 .i32) (x3 : Vec F S128x256 .f32) (x4 : Vec F S1x256 .f32) (x5 : Vec F S256x128 .f32) (x6 : Vec F S1x128 .f32) :
    out0_A_7 c i arg2 harg2 arg3 harg3 arg4 harg4 arg5 harg5 arg6 harg6 arg7 harg7 arg8 harg8 arg9 harg9 hc0 x0 x1 x2 x3 x4 x5 x6 = step x0 x1 x2 x3 x4 x5 x6 (k0_pay2 (F := F)) := by
  unfold out0_A_7
  rw [View.read_writes_eq_canon _ _ _ (cover0_A_7 c i arg2 harg2 arg3 harg3 arg4 harg4 arg5 harg5 arg6 harg6 arg7 harg7 arg8 harg8 arg9 harg9 hc0 x0 x1 x2 x3 x4 x5 x6)]
  unfold kernelRun0_A
  dsimp only
  sl_unfold_words
  rw [View.canon_cons_unit_zero (S := S1x512x128) zeros3, View.readCov_unit_zero (S := S1x512x128) _ zeros3]
  unfold step
  simp only [View.readAt_eq_ld, harg2.read_unread, harg3.read_unread, harg4.read_unread, harg5.read_unread, harg6.read_unread, harg7.read_unread, harg8.read_unread,
    View.ld_unit_zero (S := S1000x128) zeros2, View.ld_unit_zero (S := S1x1x1000) zeros3, View.ld_unit_zero (S := S128x256) zeros2,
    View.ld_unit_zero (S := S1x256) zeros2, View.ld_unit_zero (S := S256x128) zeros2, View.ld_unit_zero (S := S1x128) zeros2]

/-- Every other point: the body reads what the point before left and stores `step` over it. Its one covering store's
    payload is `step` of the inputs, each read whole, over the block found, read whole. -/
theorem out_B (c : Dev nD) (i : grid0.Coords) (arg2 : Memref sig .tc .vmem S1000x128 .f32) (harg2 : arg2.IsWhole) (arg3 : Memref sig .tc .vmem S1000x128 .f32) (harg3 : arg3.IsWhole) (arg4 : Memref sig .tc .vmem S1x1x1000 .i32) (harg4 : arg4.IsWhole) (arg5 : Memref sig .tc .vmem S128x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x512x128 .f32) (harg9 : arg9.IsWhole) (hc0 : ¬cond0_0 i)
    (x0 x1 : Vec F S1000x128 .f32) (x2 : Vec F S1x1x1000 .i32) (x3 : Vec F S128x256 .f32) (x4 : Vec F S1x256 .f32) (x5 : Vec F S256x128 .f32) (x6 : Vec F S1x128 .f32) (xo7 : Vec F S1x512x128 .f32) :
    out0_B_7 c i arg2 harg2 arg3 harg3 arg4 harg4 arg5 harg5 arg6 harg6 arg7 harg7 arg8 harg8 arg9 harg9 hc0 x0 x1 x2 x3 x4 x5 x6 xo7 = step x0 x1 x2 x3 x4 x5 x6 xo7 := by
  unfold out0_B_7
  rw [View.read_writes_eq_canon _ _ _ (cover0_B_7 c i arg2 harg2 arg3 harg3 arg4 harg4 arg5 harg5 arg6 harg6 arg7 harg7 arg8 harg8 arg9 harg9 hc0 x0 x1 x2 x3 x4 x5 x6 xo7)]
  unfold kernelRun0_B
  dsimp only
  sl_unfold_words
  rw [View.canon_unit_zero zeros3]
  unfold step
  simp only [View.readAt_eq_ld, harg2.read_unread, harg3.read_unread, harg4.read_unread, harg5.read_unread, harg6.read_unread, harg7.read_unread, harg8.read_unread, harg9.read_unread,
    View.ld_unit_zero (S := S1000x128) zeros2, View.ld_unit_zero (S := S1x1x1000) zeros3, View.ld_unit_zero (S := S128x256) zeros2,
    View.ld_unit_zero (S := S1x256) zeros2, View.ld_unit_zero (S := S256x128) zeros2, View.ld_unit_zero (S := S1x128) zeros2, View.ld_unit_zero (S := S1x512x128) zeros3]

/-! ## `step` index by index, at the ideal instance -/

/-- One tile's perceptron at row r, feature d, at the ideal instance. -/
def tileH (x0 x1 : Vec Ideal S1000x128 .f32) (x3 : Vec Ideal S128x256 .f32) (x4 : Vec Ideal S1x256 .f32) (x5 : Vec Ideal S256x128 .f32) (x6 : Vec Ideal S1x128 .f32) (r : Fin 1000) (d : Fin 128) : EReal :=
  (∑ k : Fin 256, max ((∑ j : Fin 128, (x0 (ix2 r j) + x1 (ix2 r j)) * x3 (ix2 j k)) + x4 (ix2 (0 : Fin 1) k)) 0 * x5 (ix2 k d)) + x6 (ix2 (0 : Fin 1) d)

/-- A select on the equality test of two words is the `if` on their equality. -/
theorem select_cmpi_eq {α : Type} (a b : BitVec 32) (A B : α) :
    Scalar.select (IntOp.cmpi .eq a b) A B = if a = b then A else B := by
  by_cases h : a = b
  · have hb : (a == b) = true := beq_iff_eq.mpr h
    rw [if_pos h]
    show (if BitVec.ofBool (a == b) = 1 then A else B) = A
    rw [hb]
    rfl
  · have hb : (a == b) = false := beq_eq_false_iff_ne.mpr h
    rw [if_neg h]
    show (if BitVec.ofBool (a == b) = 1 then A else B) = B
    rw [hb]
    rfl

/-- The tile's perceptron as the body computes it — the rounding steps between its layers are the identity on extended
    reals, each product is the sum over its contraction index, each bias is its one row read at the column —, at row
    `r` and feature `d`. -/
theorem pay3_apply (x0 x1 : Vec Ideal S1000x128 .f32) (x3 : Vec Ideal S128x256 .f32) (x4 : Vec Ideal S1x256 .f32) (x5 : Vec Ideal S256x128 .f32) (x6 : Vec Ideal S1x128 .f32) (r : Fin 1000) (d : Fin 128) :
    k0_pay3 (F := Ideal) x0 x1 x3 x5 x4 x6 (ix2 r d) = tileH x0 x1 x3 x4 x5 x6 r d := by
  unfold k0_pay3 tileH
  refine (addf_apply _ _ _).trans ?_
  refine congrArg₂ (· + ·) ?_ ?_
  · -- the second layer's product
    refine (Cert.LibDot.matmul_zero_apply dot_S1000x256_S256x128_S1000x128_1_0_0_1_n_n rfl rfl rfl rfl rfl rfl none _ _ r d).trans ?_
    refine Finset.sum_congr rfl fun k _ => ?_
    refine congrArg₂ (· * ·) ?_ rfl
    -- the clamped first layer at (r, k)
    refine (truncf_apply (ψ := .bf16) _ bitsLt_bf16_f32 _).trans ?_
    refine (maximumf_apply _ _ _).trans ?_
    refine congrArg₂ max ?_ ?_
    · refine (addf_apply _ _ _).trans ?_
      refine congrArg₂ (· + ·) ?_ ?_
      · -- the first layer's product
        refine (Cert.LibDot.matmul_zero_apply dot_S1000x128_S128x256_S1000x256_1_0_0_1_n_n rfl rfl rfl rfl rfl rfl none _ _ r k).trans ?_
        refine Finset.sum_congr rfl fun j _ => ?_
        refine congrArg₂ (· * ·) ?_ rfl
        refine (truncf_apply (ψ := .bf16) _ bitsLt_bf16_f32 _).trans ?_
        refine (addf_apply _ _ _).trans ?_
        exact congrArg (x0 (ix2 r j) + ·) (congrFun (shapeCast_self x1 _) _)
      · -- the first bias
        exact (broadcastTo_1b_ab_apply _ _ r k).trans (congrFun (shapeCast_self x4 _) _)
    · -- the clamp's zero
      exact Ideal.ofBits_zero_f32
  · -- the second bias
    exact (broadcastTo_1b_ab_apply _ _ r d).trans (congrFun (shapeCast_self x6 _) _)

/-- The bf16 copy of the perceptron the body multiplies by is the perceptron itself at the ideal instance. -/
theorem pay5_apply (x0 x1 : Vec Ideal S1000x128 .f32) (x3 : Vec Ideal S128x256 .f32) (x4 : Vec Ideal S1x256 .f32) (x5 : Vec Ideal S256x128 .f32) (x6 : Vec Ideal S1x128 .f32) (r : Fin 1000) (d : Fin 128) :
    k0_pay5 (F := Ideal) x0 x1 x3 x5 x4 x6 (ix2 r d) = tileH x0 x1 x3 x4 x5 x6 r d := by
  unfold k0_pay5
  refine (truncf_apply (ψ := .bf16) _ bitsLt_bf16_f32 _).trans ?_
  exact pay3_apply x0 x1 x3 x4 x5 x6 r d

/-- The segment-indicator matrix at segment `g` and row `r`: the row counter along the first axis reads `g`, the
    segment ids broadcast along it read row `r`'s id, and the two f32 words selected between are one and zero. -/
theorem pay4_apply (x2 : Vec Ideal S1x1x1000 .i32) (g : Fin 512) (r : Fin 1000) :
    k0_pay4 (F := Ideal) x2 (ix2 g r) = if BitVec.ofNat 32 g.val = x2 (ix3 (0 : Fin 1) (0 : Fin 1) r) then (1 : EReal) else 0 := by
  unfold k0_pay4
  dsimp only
  refine (truncf_apply (ψ := .bf16) _ bitsLt_bf16_f32 _).trans ?_
  refine (select_apply _ _ _ _).trans ?_
  have hi : iota .tc S512x1000 32 [0] iota_S512x1000_d0_w32 (ix2 g r) = BitVec.ofNat 32 g.val :=
    iota_single_apply .tc S512x1000 32 0 iota_S512x1000_d0_w32 (ix2 g r)
  have hb : broadcastTo S512x1000 (shapeCast S1x1000 x2 shapeCasts_S1x1x1000_S1x1000) broadcasts_S1x1000_S512x1000 (ix2 g r)
      = x2 (ix3 (0 : Fin 1) (0 : Fin 1) r) :=
    (broadcastTo_1b_ab_apply _ _ g r).trans (shapeCast_1ab_ab_apply x2 _ (0 : Fin 1) r)
  show Scalar.select (IntOp.cmpi .eq (iota .tc S512x1000 32 [0] iota_S512x1000_d0_w32 (ix2 g r))
      (broadcastTo S512x1000 (shapeCast S1x1000 x2 shapeCasts_S1x1x1000_S1x1000) broadcasts_S1x1000_S512x1000 (ix2 g r)))
      (Ideal.ofBits .f32 0x3F800000#32) (Ideal.ofBits .f32 0x00000000#32) = _
  rw [hi, hb, select_cmpi_eq, Ideal.ofBits_one_f32, Ideal.ofBits_zero_f32]

/-- The last store's payload at segment `g` and feature `d`: the block found there, plus the indicator matrix times the
    perceptron's bf16 copy, plus the indicator matrix times the remainder of the perceptron over that copy. -/
theorem pay1_apply (v24 : FVec Ideal S1000x128 .f32) (v33 : FVec Ideal S512x1000 .bf16) (v34 : FVec Ideal S1000x128 .bf16) (prev : Vec Ideal S1x512x128 .f32) (g : Fin 512) (d : Fin 128) :
    k0_pay1 (F := Ideal) v24 v33 v34 prev (ix3 (0 : Fin 1) g d)
      = prev (ix3 (0 : Fin 1) g d) + ((∑ r : Fin 1000, v33 (ix2 g r) * v34 (ix2 r d)) + ∑ r : Fin 1000, v33 (ix2 g r) * (v24 (ix2 r d) - v24 (ix2 r d))) := by
  unfold k0_pay1
  refine (shapeCast_ab_1ab_apply _ _ (0 : Fin 1) g d).trans ?_
  refine (addf_apply _ _ _).trans ?_
  refine congrArg₂ (· + ·) ?_ ?_
  · exact shapeCast_1ab_ab_apply prev _ g d
  · refine (addf_apply _ _ _).trans ?_
    refine congrArg₂ (· + ·) ?_ ?_
    · exact Cert.LibDot.matmul_zero_apply dot_S512x1000_S1000x128_S512x128_1_0_0_1_n_n rfl rfl rfl rfl rfl rfl none v33 v34 g d
    · refine (Cert.LibDot.matmul_zero_apply dot_S512x1000_S1000x128_S512x128_1_0_0_1_n_n rfl rfl rfl rfl rfl rfl none v33 _ g d).trans ?_
      exact Finset.sum_congr rfl fun r _ => rfl

/-- The block a point leaves, entry by entry: what it found, plus the segment-indicator matrix times the tile's
    perceptron, plus that matrix times the remainder `h - h` of the perceptron's two-term split. -/
theorem step_apply (x0 x1 : Vec Ideal S1000x128 .f32) (x2 : Vec Ideal S1x1x1000 .i32) (x3 : Vec Ideal S128x256 .f32) (x4 : Vec Ideal S1x256 .f32) (x5 : Vec Ideal S256x128 .f32) (x6 : Vec Ideal S1x128 .f32) (prev : Vec Ideal S1x512x128 .f32) (g : Fin 512) (d : Fin 128) :
    step (F := Ideal) x0 x1 x2 x3 x4 x5 x6 prev (ix3 (0 : Fin 1) g d)
      = prev (ix3 (0 : Fin 1) g d)
        + ((∑ r : Fin 1000, (if BitVec.ofNat 32 g.val = x2 (ix3 (0 : Fin 1) (0 : Fin 1) r) then (1 : EReal) else 0) * tileH x0 x1 x3 x4 x5 x6 r d)
          + ∑ r : Fin 1000, (if BitVec.ofNat 32 g.val = x2 (ix3 (0 : Fin 1) (0 : Fin 1) r) then (1 : EReal) else 0) * (tileH x0 x1 x3 x4 x5 x6 r d - tileH x0 x1 x3 x4 x5 x6 r d)) := by
  unfold step
  refine (pay1_apply _ _ _ prev g d).trans ?_
  refine congrArg (prev (ix3 (0 : Fin 1) g d) + ·) ?_
  refine congrArg₂ (· + ·) ?_ ?_
  · refine Finset.sum_congr rfl fun r _ => ?_
    exact congrArg₂ (· * ·) (pay4_apply x2 g r) (pay5_apply x0 x1 x3 x4 x5 x6 r d)
  · refine Finset.sum_congr rfl fun r _ => ?_
    exact congrArg₂ (· * ·) (pay4_apply x2 g r)
      (congrArg₂ (· - ·) (pay3_apply x0 x1 x3 x4 x5 x6 r d) (pay3_apply x0 x1 x3 x4 x5 x6 r d))

/-- The block the first point of a row stores before accumulating is zero everywhere. -/
theorem pay2_apply (j : S1x512x128.Idx) : k0_pay2 (F := Ideal) j = 0 := by
  unfold k0_pay2
  exact Ideal.ofBits_zero_f32

end Cert.KernelIdeal.Body

end
-- ==== Proof.Layout.lean ====
/-
  Two re-layouts read at an index.

  The kernel's wrapper hands the per-node graph numbers to the kernel as 50 rows of 1000 (a [50000] vector reshaped to
  [50, 1, 1000]), and each bias as a one-row matrix ([K] reshaped to [1, K]). Both reshapes keep the row-major order, so
  entry (t, 0, r) of the first is entry 1000·t + r of the vector, and entry (0, k) of the second is entry k.
-/
import Idealize.ShloMosaic.PureOps
import Idealize.ShloMosaic.Lib.ValueIdx
import Idealize.ShloMosaic.Lib.Pipeline.Value

noncomputable section

namespace Cert.Layout

open Idealize.ShloMosaic Idealize.ShloMosaic.ValueIdx

/-- A [50000] vector viewed as 50 rows of 1000: entry (t, 0, r) is entry 1000·t + r. -/
theorem tiles_apply {α : Type} (b : (⟨1, ![50000]⟩ : Shape).Idx → α)
    (h : (⟨1, ![50000]⟩ : Shape).ShapeCasts ⟨3, ![50, 1, 1000]⟩) (t : Fin 50) (r : Fin 1000) :
    shapeCast ⟨3, ![50, 1, 1000]⟩ b h (ix3 t (0 : Fin 1) r) = b (ix1 ⟨1000 * t.val + r.val, by omega⟩) := by
  refine shapeCast_apply b h _ _ ?_
  rw [Shape.rowMajor_val_one, Shape.rowMajor_val_three]
  show 1000 * t.val + r.val = (t.val * 1 + 0) * 1000 + r.val
  omega

/-- A [K] vector viewed as one row [1, K]: entry (0, k) is entry k. -/
theorem row_apply {α : Type} {K : Nat} (v : (⟨1, ![K]⟩ : Shape).Idx → α)
    (h : (⟨1, ![K]⟩ : Shape).ShapeCasts ⟨2, ![1, K]⟩) (k : Fin K) :
    shapeCast ⟨2, ![1, K]⟩ v h (ix2 (0 : Fin 1) k) = v (ix1 k) := by
  refine shapeCast_apply v h _ _ ?_
  rw [Shape.rowMajor_val_one, Shape.rowMajor_val_two]
  show k.val = 0 * K + k.val
  omega

end Cert.Layout

end
-- ==== Proof.KerBlocks.lean ====
/-
  The arrays the kernel's region finds, and its windows' blocks at a grid point, index by index.

  Before the region the host computes the aggregated messages (`Cert.Pool.agg` of `x` and `edge_index`), views the graph
  numbers as 50 rows of 1000 and each bias as one row. At grid point `t` (of 50: half `t / 25`, tile `t % 25`) the
  windows of `x`, of the messages and of the graph numbers hold tile `t`: rows 1000·t … 1000·t + 999; the windows of the
  weights and biases hold them whole.
-/
import proofs.«404856_j52467320488062_3_alg».proof.Proof.Patched.KernelIdeal.Frame
import proofs.«404856_j52467320488062_3_alg».proof.Proof.Spec
import proofs.«404856_j52467320488062_3_alg».proof.Proof.Layout
import Idealize.ShloMosaic.Lib.Pipeline.Value
import Idealize.ShloMosaic.Lib.StableHlo.Run

noncomputable section

open Idealize.ShloMosaic Idealize.ShloMosaic.TcCoe Idealize.SL.Sem Idealize.ShloMosaic.ValueIdx

namespace Cert.KernelIdeal.Blocks

open Cert.KernelIdeal Cert.KernelIdeal.Gen Cert.KernelIdeal.GenP

variable {F : FTy → Type} [FloatOps F]
variable (m : (ℓ : Loc nD τ sig) → Buf (Elt F) ℓ)

theorem lt50 (t : Fin cfg0.N) : t.val < 50 := lt_of_lt_of_eq t.isLt (show cfg0.N = 50 from N_0)

/-- Row `r` of the tile of grid point `t`: node 1000·t + r. -/
def nodeAt (t : Fin cfg0.N) (r : Fin 1000) : Fin 50000 :=
  ⟨1000 * t.val + r.val, by have := lt50 t; have := r.isLt; omega⟩

theorem nodeAt_val (t : Fin cfg0.N) (r : Fin 1000) : (nodeAt t r).val = 1000 * t.val + r.val := rfl

/-! ## What the host leaves for the region -/

/-- The second window's array: the aggregated messages. -/
theorem V_agg (c : Dev nD) :
    V m c main_v13 = Cert.Pool.agg (m ((c : Thread nD τ).loc main_arg0)) (m ((c : Thread nD τ).loc main_arg1)) := by
  show StableHlo.after hostOps0 (fun b => m (c, b)) (Proc.devRef .tc main_v13) = _
  after_results_simp
  rfl

/-- The third window's array: the graph numbers as 50 rows of 1000. -/
theorem V_tiles (c : Dev nD) :
    V m c main_v14 = fun i => shapeCast S50x1x1000 (m ((c : Thread nD τ).loc main_arg2)) shapeCasts_S50000_S50x1x1000 i := by
  show StableHlo.after hostOps0 (fun b => m (c, b)) (Proc.devRef .tc main_v14) = _
  after_results
  rfl

/-- The fifth window's array: the first bias as one row. -/
theorem V_b1 (c : Dev nD) :
    V m c main_v15 = fun i => shapeCast S1x256 (m ((c : Thread nD τ).loc main_arg4)) shapeCasts_S256_S1x256 i := by
  show StableHlo.after hostOps0 (fun b => m (c, b)) (Proc.devRef .tc main_v15) = _
  after_results
  rfl

/-- The seventh window's array: the second bias as one row. -/
theorem V_b2 (c : Dev nD) :
    V m c main_v16 = fun i => shapeCast S1x128 (m ((c : Thread nD τ).loc main_arg6)) shapeCasts_S128_S1x128 i := by
  show StableHlo.after hostOps0 (fun b => m (c, b)) (Proc.devRef .tc main_v16) = _
  after_results
  rfl

/-! ## The windows' block indices over the grid -/

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 0 ∧ win0_5.index t 1 = 0 :=
  (by decide +kernel : ∀ t : Fin grid0.N, win0_5.index t 0 = 0 ∧ win0_5.index t 1 = 0)
theorem idx6 : ∀ t : Fin cfg0.N, win0_6.index t 0 = 0 ∧ win0_6.index t 1 = 0 :=
  (by decide +kernel : ∀ t : Fin grid0.N, win0_6.index t 0 = 0 ∧ win0_6.index t 1 = 0)

/-! ## The blocks, index by index -/

/-- The windows' blocks at grid point `t`, each at its literal type. -/
abbrev xblk (c : Dev nD) (t : Fin cfg0.N) : Vec F S1000x128 .f32 := iblk m c 0 t
abbrev ablk (c : Dev nD) (t : Fin cfg0.N) : Vec F S1000x128 .f32 := iblk m c 1 t
abbrev bblk (c : Dev nD) (t : Fin cfg0.N) : Vec F S1x1x1000 .i32 := iblk m c 2 t
abbrev w1blk (c : Dev nD) (t : Fin cfg0.N) : Vec F S128x256 .f32 := iblk m c 3 t
abbrev b1blk (c : Dev nD) (t : Fin cfg0.N) : Vec F S1x256 .f32 := iblk m c 4 t
abbrev w2blk (c : Dev nD) (t : Fin cfg0.N) : Vec F S256x128 .f32 := iblk m c 5 t
abbrev b2blk (c : Dev nD) (t : Fin cfg0.N) : Vec F S1x128 .f32 := iblk m c 6 t

/-- The tile of `x`. -/
theorem xblk_apply (c : Dev nD) (t : Fin cfg0.N) (r : Fin 1000) (j : Fin 128) :
    xblk m c t (ix2 r j) = m ((c : Thread nD τ).loc main_arg0) (ix2 (nodeAt t r) j) := by
  obtain ⟨i0, i1⟩ := idx0 t
  show iblk m c _ t _ = _
  unfold iblk
  rw [View.read_apply]
  show V m c main_arg0 _ = _
  rw [V_main_arg0]
  refine congrArg _ (funext fun a => Fin.ext ?_)
  match a with
  | ⟨0, _⟩ => show win0_0.index t 0 * 1000 + 1 * r.val = 1000 * t.val + r.val; rw [i0]; omega
  | ⟨1, _⟩ => show win0_0.index t 1 * 128 + 1 * j.val = j.val; rw [i1]; omega

/-- The tile of the aggregated messages. -/
theorem ablk_apply (c : Dev nD) (t : Fin cfg0.N) (r : Fin 1000) (j : Fin 128) :
    ablk m c t (ix2 r j)
      = Cert.Pool.agg (m ((c : Thread nD τ).loc main_arg0)) (m ((c : Thread nD τ).loc main_arg1)) (ix2 (nodeAt t r) j) := by
  obtain ⟨i0, i1⟩ := idx1 t
  show iblk m c _ t _ = _
  unfold iblk
  rw [View.read_apply]
  show V m c main_v13 _ = _
  rw [V_agg]
  refine congrArg _ (funext fun a => Fin.ext ?_)
  match a with
  | ⟨0, _⟩ => show win0_1.index t 0 * 1000 + 1 * r.val = 1000 * t.val + r.val; rw [i0]; omega
  | ⟨1, _⟩ => show win0_1.index t 1 * 128 + 1 * j.val = j.val; rw [i1]; omega

/-- The tile of the graph numbers. -/
theorem bblk_apply (c : Dev nD) (t : Fin cfg0.N) (r : Fin 1000) :
    bblk m c t (ix3 (0 : Fin 1) (0 : Fin 1) r) = m ((c : Thread nD τ).loc main_arg2) (ix1 (nodeAt t r)) := by
  obtain ⟨i0, i1, i2⟩ := idx2 t
  show iblk m c _ t _ = _
  unfold iblk
  rw [View.read_apply]
  show V m c main_v14 _ = _
  rw [V_tiles]
  have e : (((cfg0.win 2).blk t).view.emb (ix3 (0 : Fin 1) (0 : Fin 1) r) : S50x1x1000.Idx)
      = ix3 (⟨t.val, lt50 t⟩ : Fin 50) (0 : Fin 1) r := by
    funext a; refine Fin.ext ?_
    match a with
    | ⟨0, _⟩ => show win0_2.index t 0 * 1 + 1 * 0 = t.val; rw [i0]; omega
    | ⟨1, _⟩ => show win0_2.index t 1 * 1 + 1 * 0 = 0; rw [i1]
    | ⟨2, _⟩ => show win0_2.index t 2 * 1000 + 1 * r.val = r.val; rw [i2]; omega
  refine (congrArg (fun i => shapeCast S50x1x1000 (m ((c : Thread nD τ).loc main_arg2)) shapeCasts_S50000_S50x1x1000 i) e).trans ?_
  exact Cert.Layout.tiles_apply _ _ ⟨t.val, lt50 t⟩ r

/-- The first weight matrix, whole. -/
theorem w1blk_apply (c : Dev nD) (t : Fin cfg0.N) (j : Fin 128) (k : Fin 256) :
    w1blk m c t (ix2 j k) = m ((c : Thread nD τ).loc main_arg3) (ix2 j k) := by
  obtain ⟨i0, i1⟩ := idx3 t
  show iblk m c _ t _ = _
  unfold iblk
  rw [View.read_apply]
  show V m c main_arg3 _ = _
  rw [V_main_arg3]
  refine congrArg _ (funext fun a => Fin.ext ?_)
  match a with
  | ⟨0, _⟩ => show win0_3.index t 0 * 128 + 1 * j.val = j.val; rw [i0]; omega
  | ⟨1, _⟩ => show win0_3.index t 1 * 256 + 1 * k.val = k.val; rw [i1]; omega

/-- The first bias, as its one row. -/
theorem b1blk_apply (c : Dev nD) (t : Fin cfg0.N) (k : Fin 256) :
    b1blk m c t (ix2 (0 : Fin 1) k) = m ((c : Thread nD τ).loc main_arg4) (ix1 k) := by
  obtain ⟨i0, i1⟩ := idx4 t
  show iblk m c _ t _ = _
  unfold iblk
  rw [View.read_apply]
  show V m c main_v15 _ = _
  rw [V_b1]
  have e : (((cfg0.win 4).blk t).view.emb (ix2 (0 : Fin 1) k) : S1x256.Idx) = ix2 (0 : Fin 1) k := by
    funext a; refine Fin.ext ?_
    match a with
    | ⟨0, _⟩ => show win0_4.index t 0 * 1 + 1 * 0 = 0; rw [i0]
    | ⟨1, _⟩ => show win0_4.index t 1 * 256 + 1 * k.val = k.val; rw [i1]; omega
  refine (congrArg (fun i => shapeCast S1x256 (m ((c : Thread nD τ).loc main_arg4)) shapeCasts_S256_S1x256 i) e).trans ?_
  exact Cert.Layout.row_apply _ _ k

/-- The second weight matrix, whole. -/
theorem w2blk_apply (c : Dev nD) (t : Fin cfg0.N) (k : Fin 256) (d : Fin 128) :
    w2blk m c t (ix2 k d) = m ((c : Thread nD τ).loc main_arg5) (ix2 k d) := by
  obtain ⟨i0, i1⟩ := idx5 t
  show iblk m c _ t _ = _
  unfold iblk
  rw [View.read_apply]
  show V m c main_arg5 _ = _
  rw [V_main_arg5]
  refine congrArg _ (funext fun a => Fin.ext ?_)
  match a with
  | ⟨0, _⟩ => show win0_5.index t 0 * 256 + 1 * k.val = k.val; rw [i0]; omega
  | ⟨1, _⟩ => show win0_5.index t 1 * 128 + 1 * d.val = d.val; rw [i1]; omega

/-- The second bias, as its one row. -/
theorem b2blk_apply (c : Dev nD) (t : Fin cfg0.N) (d : Fin 128) :
    b2blk m c t (ix2 (0 : Fin 1) d) = m ((c : Thread nD τ).loc main_arg6) (ix1 d) := by
  obtain ⟨i0, i1⟩ := idx6 t
  show iblk m c _ t _ = _
  unfold iblk
  rw [View.read_apply]
  show V m c main_v16 _ = _
  rw [V_b2]
  have e : (((cfg0.win 6).blk t).view.emb (ix2 (0 : Fin 1) d) : S1x128.Idx) = ix2 (0 : Fin 1) d := by
    funext a; refine Fin.ext ?_
    match a with
    | ⟨0, _⟩ => show win0_6.index t 0 * 1 + 1 * 0 = 0; rw [i0]
    | ⟨1, _⟩ => show win0_6.index t 1 * 128 + 1 * d.val = d.val; rw [i1]; omega
  refine (congrArg (fun i => shapeCast S1x128 (m ((c : Thread nD τ).loc main_arg6)) shapeCasts_S128_S1x128 i) e).trans ?_
  exact Cert.Layout.row_apply _ _ d

end Cert.KernelIdeal.Blocks

end
-- ==== Proof.LibAcc.lean ====
import Mathlib.Algebra.BigOperators.Fin

/-!
# An accumulator that is reset at the start of each stretch

The points `0, 1, …, B * T - 1` fall into `B` stretches of `T` consecutive points.  An accumulator that
holds the point's term at the first point of a stretch, and at every other point what the point before left
plus the point's term, holds at point `i` of stretch `b` the sum of the terms of the points `0, …, i` of that
stretch; at the stretch's last point, the sum over the whole stretch.
-/

namespace Cert.LibAcc

/-- Point `k` of stretch `b` is a point. -/
theorem idx_lt {T B : ℕ} (b : Fin B) {k : ℕ} (hk : k < T) : b.val * T + k < B * T :=
  calc b.val * T + k < b.val * T + T := Nat.add_lt_add_left hk _
    _ = (b.val + 1) * T := (Nat.succ_mul _ _).symm
    _ ≤ B * T := Nat.mul_le_mul_right T b.isLt

/-- Point `k` of a stretch has remainder `k`. -/
theorem mod_eq (b T k : ℕ) (hk : k < T) : (b * T + k) % T = k := by
  rw [Nat.add_comm, Nat.add_mul_mod_self_right, Nat.mod_eq_of_lt hk]

section
variable {M : Type} [AddCommMonoid M] (T B : ℕ) (acc s : (n : ℕ) → n < B * T → M)

/-- The accumulator at equal points. -/
theorem acc_congr {n n' : ℕ} (e : n = n') (h : n < B * T) (h' : n' < B * T) : acc n h = acc n' h' := by
  subst e; rfl

variable (hreset : ∀ n (hn : n < B * T), n % T = 0 → acc n hn = s n hn)
  (hstep : ∀ n (hn : n < B * T) (h : n % T ≠ 0), acc n hn = acc (n - 1) (by omega) + s n hn)

include hreset hstep in
/-- At point `k` of stretch `b` the accumulator holds the sum of the stretch's terms up to `k`. -/
theorem acc_prefix (b : Fin B) : ∀ (k : ℕ) (hk : k < T),
    acc (b.val * T + k) (idx_lt b hk)
      = ∑ i' : Fin (k + 1), s (b.val * T + i'.val) (idx_lt b (Nat.lt_of_lt_of_le i'.isLt hk))
  | 0, hk => by
    rw [Fin.sum_univ_one]
    exact hreset _ _ (mod_eq b.val T 0 hk)
  | k + 1, hk => by
    rw [Fin.sum_univ_castSucc]
    have hmod : (b.val * T + (k + 1)) % T ≠ 0 := by rw [mod_eq b.val T (k + 1) hk]; omega
    rw [hstep _ _ hmod]
    refine congrArg₂ (· + ·) ?_ rfl
    exact (acc_congr T B acc (by omega) _ (idx_lt b (Nat.lt_of_succ_lt hk))).trans
      (acc_prefix b k (Nat.lt_of_succ_lt hk))

include hreset hstep in
/-- The same over the points of a stretch as `Fin T`. -/
theorem acc_stretch (b : Fin B) (i : Fin T) :
    acc (b.val * T + i.val) (idx_lt b i.isLt)
      = ∑ i' : Fin (i.val + 1), s (b.val * T + i'.val) (idx_lt b (Nat.lt_of_lt_of_le i'.isLt i.isLt)) :=
  acc_prefix T B acc s hreset hstep b i.val i.isLt

include hreset hstep in
/-- At the last point of a stretch the accumulator holds the stretch's sum. -/
theorem acc_last (hT : 0 < T) (b : Fin B) :
    acc (b.val * T + (T - 1)) (idx_lt b (by omega)) = ∑ i : Fin T, s (b.val * T + i.val) (idx_lt b i.isLt) := by
  cases T with
  | zero => omega
  | succ T' => exact acc_prefix (T' + 1) B acc s hreset hstep b T' (Nat.lt_succ_self T')

end

section
variable {M : Type} [AddCommMonoid M] (T B : ℕ) (acc s : (n : ℕ) → n < B * T → M) (z : M) (hz : z = 0)
  (hreset : ∀ n (hn : n < B * T), n % T = 0 → acc n hn = z + s n hn)
  (hstep : ∀ n (hn : n < B * T) (h : n % T ≠ 0), acc n hn = acc (n - 1) (by omega) + s n hn)

include hz hreset hstep in
/-- The same when the first point of a stretch adds its term to a zero. -/
theorem acc_stretch_zero (b : Fin B) (i : Fin T) :
    acc (b.val * T + i.val) (idx_lt b i.isLt)
      = ∑ i' : Fin (i.val + 1), s (b.val * T + i'.val) (idx_lt b (Nat.lt_of_lt_of_le i'.isLt i.isLt)) :=
  acc_stretch T B acc s (fun n hn h => by rw [hreset n hn h, hz, zero_add]) hstep b i

include hz hreset hstep in
theorem acc_last_zero (hT : 0 < T) (b : Fin B) :
    acc (b.val * T + (T - 1)) (idx_lt b (by omega)) = ∑ i : Fin T, s (b.val * T + i.val) (idx_lt b i.isLt) :=
  acc_last T B acc s (fun n hn h => by rw [hreset n hn h, hz, zero_add]) hstep hT b

end

end Cert.LibAcc
-- ==== Proof.LibBlockSum.lean ====
/-
  Three general facts: a sum over B·R indices taken block by block, a 32-bit word read as a small natural number, and an
  indicator times an extended real.
-/
import Mathlib.Logic.Equiv.Fin.Basic
import Mathlib.Data.Fintype.BigOperators
import Mathlib.Algebra.BigOperators.Group.Finset.Defs
import Mathlib.Data.EReal.Operations

noncomputable section

open scoped BigOperators

namespace Cert.LibBlockSum

/-! ## A sum over B·R indices, block by block -/

/-- Entry `r` of block `t`, among `N = B * R` indices cut into `B` consecutive blocks of `R`: the index `R * t + r`. -/
def blockIdx {B R N : Nat} (h : B * R = N) (t : Fin B) (r : Fin R) : Fin N :=
  ⟨R * t.val + r.val, by
    have ht := t.isLt
    have hr := r.isLt
    calc R * t.val + r.val < R * t.val + R := by omega
      _ = R * (t.val + 1) := by rw [Nat.mul_succ]
      _ ≤ R * B := Nat.mul_le_mul_left _ ht
      _ = N := by rw [Nat.mul_comm]; exact h⟩

/-- Its value is `R * t + r`. -/
theorem blockIdx_val {B R N : Nat} (h : B * R = N) (t : Fin B) (r : Fin R) :
    (blockIdx h t r).val = R * t.val + r.val := rfl

/-- A sum over `N = B * R` indices is the sum over the `B` blocks of the sum over each block's `R` entries. -/
theorem sum_blocks {M : Type*} [AddCommMonoid M] {B R N : Nat} (h : B * R = N) (f : Fin N → M) :
    ∑ n : Fin N, f n = ∑ t : Fin B, ∑ r : Fin R, f (blockIdx h t r) := by
  subst h
  rw [← Equiv.sum_comp (finProdFinEquiv (m := B) (n := R)) f, Fintype.sum_prod_type]
  refine Finset.sum_congr rfl fun t _ => Finset.sum_congr rfl fun r _ => congrArg f (Fin.ext ?_)
  show r.val + R * t.val = R * t.val + r.val
  exact Nat.add_comm _ _

/-! ## A 32-bit word that is a small natural number -/

/-- A 32-bit word is the word of a natural number `g` below `2 ^ 31` exactly when, read as a signed integer, it is `g`. -/
theorem eq_ofNat_iff_toInt_eq (b : BitVec 32) (g : Nat) (hg : g < 2 ^ 31) :
    b = BitVec.ofNat 32 g ↔ b.toInt = (g : Int) := by
  have e : (BitVec.ofNat 32 g).toInt = (g : Int) := by
    rw [BitVec.toInt_eq_toNat_of_lt (by rw [BitVec.toNat_ofNat]; omega), BitVec.toNat_ofNat]
    omega
  rw [← e]
  exact BitVec.toInt_inj.symm

/-! ## An indicator times an extended real -/

/-- One or zero, by a condition, times an extended real is the real or zero, by the condition. -/
theorem ite_one_zero_mul (p : Prop) [Decidable p] (x : EReal) :
    (if p then (1 : EReal) else 0) * x = if p then x else 0 := by
  split
  · exact one_mul x
  · exact zero_mul x

/-- The example: 100000 indices as 20 blocks of 5000 (name the two factors: the product alone does not determine them). -/
example {M : Type*} [AddCommMonoid M] (f : Fin 100000 → M) :
    ∑ n : Fin 100000, f n = ∑ t : Fin 20, ∑ r : Fin 5000, f (blockIdx (B := 20) (R := 5000) (N := 100000) (by norm_num) t r) :=
  sum_blocks (B := 20) (R := 5000) (by norm_num) f

end Cert.LibBlockSum

end
-- ==== Proof.LibReduce.lean ====
/-
  A host sum over the LEADING axis of a rank-3 array, read at an index, at the ideal values.

  The host's float reduction with an add body is, at the ideal instance, the initial value plus the sum of the
  operand's elements that drop to the result index.  When one axis is reduced, those elements are the result
  index with each coordinate of that axis inserted, so the sum is a sum over that axis's coordinates.  For an
  [A, B, C] array reduced over its first axis the inserted index over (b, c) with coordinate a is (a, b, c):
  the reduction at (b, c) is the initial value plus the sum over a of the array at (a, b, c).  Stated for any
  three extents and any float format.
-/
import Idealize.ShloMosaic.PureOps.Ideal
import Idealize.ShloMosaic.PureOps.Ideal.Laws
import Idealize.ShloMosaic.Lib.ValueIdx

noncomputable section

open scoped BigOperators

namespace Cert.LibReduce

open Idealize.ShloMosaic Idealize.ShloMosaic.ValueIdx in
/-- Over a result index (b, c) of the [B, C] array, the source index of the [A, B, C] array whose coordinate on
    the dropped leading axis is a, is (a, b, c): on axis 0 it is the inserted coordinate, on axes 1 and 2 the
    result's coordinates on axes 0 and 1 (each source axis after the dropped one is the result axis one below). -/
theorem lift_lead {A B C : Nat} (hR : (⟨3, ![A, B, C]⟩ : Shape).Reduces [0] ⟨2, ![B, C]⟩)
    (a : Fin A) (b : Fin B) (c : Fin C) : hR.lift (ix2 b c) a = ix3 a b c := by
  funext d
  apply Fin.ext
  match d with
  | ⟨0, _⟩ => rfl
  | ⟨1, _⟩ => rfl
  | ⟨2, _⟩ => rfl

open Idealize.ShloMosaic Idealize.ShloMosaic.ValueIdx in
/-- A host sum over the leading axis of an [A, B, C] array, at the ideal instance, read at (b, c): the initial value plus the sum over the A slices. -/
theorem reduceAdd_lead_apply {A B C : Nat} {φ : FTy} (x : FVec Ideal ⟨3, ![A, B, C]⟩ φ) (init : FVec Ideal ⟨0, ![]⟩ φ)
    (h : (⟨3, ![A, B, C]⟩ : Shape).ReducesTo [0] ⟨2, ![B, C]⟩) (hu : 0 < (⟨0, ![]⟩ : Shape).numel) (b : Fin B) (c : Fin C) :
    Host.reduceAdd x init h hu (ix2 b c) = init ix0 + ∑ a : Fin A, x (ix3 a b c) := by
  -- the same shape fact with the result's rank positive: it names the inserted index
  have hR : (⟨3, ![A, B, C]⟩ : Shape).Reduces [0] ⟨2, ![B, C]⟩ := ⟨h.1, Nat.zero_lt_two, h.2⟩
  have hs : (∑ k : Fin A, x (hR.lift (ix2 b c) k)) = ∑ a : Fin A, x (ix3 a b c) :=
    Finset.sum_congr rfl fun a _ => by rw [lift_lead hR a b c]
  calc Host.reduceAdd x init h hu (ix2 b c)
      = init (Shape.Idx.first hu) + ∑ k : Fin A, x (hR.lift (ix2 b c) k) :=
        Ideal.hostReduceAdd_single h hR x (init (Shape.Idx.first hu)) (ix2 b c)
    _ = init ix0 + ∑ a : Fin A, x (ix3 a b c) := by rw [hs, eq_ix0 (Shape.Idx.first hu)]

end Cert.LibReduce

end
-- ==== Proof.LibIndex.lean ====
/-
  Three host operations read at an index, and two facts of extended-real arithmetic.

  A gather of whole rows of a matrix (one start index per result row), a scatter that adds whole rows of an update
  matrix into the rows of an operand, and its rank-1 form that adds scalars into a vector: each is read at one
  element. The scatters are read at the ideal instance, where a float is an extended real and the accumulation is
  the exact sum over the updates that land on the element.
-/
import Idealize.ShloMosaic.PureOps.Ideal
import Idealize.ShloMosaic.Lib.ValueIdx
import Mathlib.Data.EReal.Operations
import Mathlib.Algebra.BigOperators.Group.Finset.Basic
import Mathlib.Algebra.BigOperators.Group.Finset.Piecewise

noncomputable section

open scoped BigOperators

namespace Cert.LibIndex

open Idealize.ShloMosaic Idealize.ShloMosaic.ValueIdx

/-! ## A gather of rows -/

section RowGather
variable {α : Type}

/-- The dimension numbers of a gather of whole rows: operand `[N, C]`, start indices `[R, 1]` (one row number
    per result row), result `[R, C]`; axis 0 of the operand is collapsed and indexed, axis 1 is the offset axis,
    the slice is one whole row. The conditions `wf` are decided on a program's literal shapes. -/
abbrev rowGatherDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(k, c)`: column `c` of the operand's row whose number is the start index
    `idx[k, 0]`, read signed and clamped into `[0, N − 1]`. -/
theorem gather_row_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (k : Fin R) (c : Fin C) :
    Host.gather (rowGatherDims N C R wf) x idx (ix2 k c)
      = x (ix2 ⟨min (idx (ix2 k (0 : Fin 1))).toInt.toNat (N - 1), by omega⟩ c) := by
  -- the start on axis 0: the clamped start index; on axis 1 (not in the start index map): zero
  have hst0 : (rowGatherDims N C R wf).start (ix2 k c) idx (0 : Fin 2)
      = min (idx (ix2 k (0 : Fin 1))).toInt.toNat (N - 1) := by
    unfold GatherDims.start
    rw [dif_pos (show (0 : Fin 2) ∈ (rowGatherDims N C R wf).startIndexMap from List.mem_singleton.mpr rfl)]
    have hsi : (rowGatherDims N C R wf).siIdx (ix2 k c) ⟨List.idxOf (0 : Fin 2) (rowGatherDims N C R wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl
  have hst1 : (rowGatherDims N C R wf).start (ix2 k c) idx (1 : Fin 2) = 0 := by
    unfold GatherDims.start
    exact dif_neg (show (1 : Fin 2) ∉ ([0] : List (Fin 2)) from by decide)
  -- the offset coordinate: zero on the collapsed axis 0, the result's column on axis 1
  have hoff0 : (rowGatherDims N C R wf).offCoord (ix2 k c) (0 : Fin 2) = 0 :=
    GatherDims.offCoord_eq_zero _ _ _ (fun h => ((GatherDims.mem_sKept _ _).mp h).1 (List.mem_singleton.mpr rfl))
  have hoff1 : (rowGatherDims N C R wf).offCoord (ix2 k c) (1 : Fin 2) = c.val := by
    unfold GatherDims.offCoord
    rw [dif_pos ((GatherDims.mem_sKept (rowGatherDims N C R wf) (1 : Fin 2)).mpr
      ⟨(show (1 : Fin 2) ∉ ([0] : List (Fin 2)) from by decide), List.not_mem_nil⟩)]
    rfl
  unfold Host.gather
  congr 1
  funext a
  refine Fin.ext ?_
  match a with
  | ⟨0, _⟩ =>
    show (rowGatherDims N C R wf).start (ix2 k c) idx (0 : Fin 2) + (rowGatherDims N C R wf).batchCoord (ix2 k c) (0 : Fin 2)
      + (rowGatherDims N C R wf).offCoord (ix2 k c) (0 : Fin 2) = min (idx (ix2 k (0 : Fin 1))).toInt.toNat (N - 1)
    rw [GatherDims.batchCoord_eq_zero _ _ _ List.not_mem_nil, hst0, hoff0]
    rfl
  | ⟨1, _⟩ =>
    show (rowGatherDims N C R wf).start (ix2 k c) idx (1 : Fin 2) + (rowGatherDims N C R wf).batchCoord (ix2 k c) (1 : Fin 2)
      + (rowGatherDims N C R wf).offCoord (ix2 k c) (1 : Fin 2) = c.val
    rw [GatherDims.batchCoord_eq_zero _ _ _ List.not_mem_nil, hst1, hoff1]
    omega

/-- The same for any dimension numbers whose fields are those of a gather of rows (a printed record's are, each by
    `rfl`). -/
theorem gather_row_apply_of {N C R w : Nat} (hN : 0 < N) (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![R, 1]⟩ w) (k : Fin R) (c : Fin C) :
    Host.gather d x idx (ix2 k c)
      = x (ix2 ⟨min (idx (ix2 k (0 : Fin 1))).toInt.toNat (N - 1), by omega⟩ c) := by
  obtain ⟨od, cd, ob, sb, sm, iv, ss, wf⟩ := d
  dsimp only at h1 h2 h3 h4 h5 h6 h7
  subst h1 h2 h3 h4 h5 h6 h7
  exact gather_row_apply hN wf x idx k c

end RowGather

/-! ## A scatter that adds rows -/

/-- An axis is among a shape's kept axes exactly when it is not among the removed ones. -/
theorem mem_kept {s : Shape} (axes : List (Fin s.rank)) (a : Fin s.rank) : a ∈ s.kept axes ↔ a ∉ axes := by
  simp [Shape.kept, List.mem_filter, List.mem_finRange]

/-- The dimension numbers of a scatter of whole rows: operand `[N, C]`, scatter indices `[R, 1]` (one row number
    per update row), updates `[R, C]`; axis 0 of the operand is the inserted, indexed axis, axis 1 of the updates
    is the window axis. -/
abbrev rowScatterDims (N C R : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The window of update row `k` starts, on the operand's axis 0, at the scatter index `idx[k, 0]` read signed. -/
theorem rowScatter_start0 {N C R w : Nat}
    (wf : ScatterDims.WF ⟨2, ![N, C]⟩ ⟨2, ![R, 1]⟩ ⟨2, ![R, C]⟩ [1] [0] [0] 1)
    (idx : IVec ⟨2, ![R, 1]⟩ w) (k : Fin R) (c : Fin C) :
    (rowScatterDims N C R wf).start (ix2 k c) idx (0 : Fin 2) = (idx (ix2 k (0 : Fin 1))).toInt := by
  unfold ScatterDims.start
  rw [dif_pos (show (0 : Fin 2) ∈ (rowScatterDims N C R wf).scatterDimsToOperandDims from List.mem_singleton.mpr rfl)]
  have hsi : (rowScatterDims N C R wf).siIdx (ix2 k c) ⟨List.idxOf (0 : Fin 2) (rowScatterDims N C R wf).scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- On the operand's axis 1, which the scatter indices do not address, the window starts at zero. -/
theorem rowScatter_start1 {N C R w : Nat}
    (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) :
    (rowScatterDims N C R wf).start j idx (1 : Fin 2) = 0 := by
  unfold ScatterDims.start
  exact dif_neg (show (1 : Fin 2) ∉ ([0] : List (Fin 2)) from by decide)

/-- The window coordinate on the inserted axis 0 is zero. -/
theorem rowScatter_window0 {N C R : Nat}
    (wf : ScatterDims.WF ⟨2, ![N, C]⟩ ⟨2, ![R, 1]⟩ ⟨2, ![R, C]⟩ [1] [0] [0] 1)
    (j : (⟨2, ![R, C]⟩ : Shape).Idx) :
    (rowScatterDims N C R wf).window j (0 : Fin 2) = 0 := by
  unfold ScatterDims.window
  exact dif_neg (fun h => ((mem_kept _ _).mp h) (List.mem_singleton.mpr rfl))

/-- The window coordinate on axis 1 is the update's column. -/
theorem rowScatter_window1 {N C R : Nat}
    (wf : ScatterDims.WF ⟨2, ![N, C]⟩ ⟨2, ![R, 1]⟩ ⟨2, ![R, C]⟩ [1] [0] [0] 1)
    (j : (⟨2, ![R, C]⟩ : Shape).Idx) :
    (rowScatterDims N C R wf).window j (1 : Fin 2) = (j 1).val := by
  have h1k : (1 : Fin 2) ∈ (rowScatterDims N C R wf).sKept :=
    (mem_kept _ _).mpr (show (1 : Fin 2) ∉ ([0] : List (Fin 2)) from by decide)
  unfold ScatterDims.window
  rw [dif_pos h1k]
  rfl

/-- Update element `(k, c')` lands on operand element `(v, c)` exactly when row `k`'s scatter index, read signed, is
    `v` and the columns agree (an index that is not a row number lands nowhere). -/
theorem rowScatter_resultIdx?_eq_some {N C R w : Nat}
    (wf : ScatterDims.WF ⟨2, ![N, C]⟩ ⟨2, ![R, 1]⟩ ⟨2, ![R, C]⟩ [1] [0] [0] 1)
    (idx : IVec ⟨2, ![R, 1]⟩ w) (k : Fin R) (c' : Fin C) (v : Fin N) (c : Fin C) :
    (rowScatterDims N C R wf).resultIdx? (ix2 k c') idx = some (ix2 v c)
      ↔ (idx (ix2 k (0 : Fin 1))).toInt = (v.val : Int) ∧ c' = c := by
  have hs0 := rowScatter_start0 wf idx k c'
  have hs1 := rowScatter_start1 wf idx (ix2 k c')
  have hw0 := rowScatter_window0 wf (ix2 k c')
  have hw1 : (rowScatterDims N C R wf).window (ix2 k c') (1 : Fin 2) = c'.val := rowScatter_window1 wf (ix2 k c')
  have hv := v.isLt
  have hc' := c'.isLt
  unfold ScatterDims.resultIdx?
  split
  · rename_i h
    rw [Option.some.injEq]
    constructor
    · intro hf
      have h0 : ((rowScatterDims N C R wf).start (ix2 k c') idx (0 : Fin 2)
          + ((rowScatterDims N C R wf).window (ix2 k c') (0 : Fin 2) : Int)).toNat = v.val :=
        congrArg Fin.val (congrFun hf (0 : Fin 2))
      have h1 : ((rowScatterDims N C R wf).start (ix2 k c') idx (1 : Fin 2)
          + ((rowScatterDims N C R wf).window (ix2 k c') (1 : Fin 2) : Int)).toNat = c.val :=
        congrArg Fin.val (congrFun hf (1 : Fin 2))
      have hh := (h (0 : Fin 2)).1
      rw [hs0, hw0] at h0 hh
      rw [hs1, hw1] at h1
      exact ⟨by omega, Fin.ext (by omega)⟩
    · rintro ⟨hv', hcc⟩
      have hcv : c'.val = c.val := congrArg Fin.val hcc
      funext a
      refine Fin.ext ?_
      match a with
      | ⟨0, _⟩ =>
        show ((rowScatterDims N C R wf).start (ix2 k c') idx (0 : Fin 2)
          + ((rowScatterDims N C R wf).window (ix2 k c') (0 : Fin 2) : Int)).toNat = v.val
        rw [hs0, hw0, hv']; omega
      | ⟨1, _⟩ =>
        show ((rowScatterDims N C R wf).start (ix2 k c') idx (1 : Fin 2)
          + ((rowScatterDims N C R wf).window (ix2 k c') (1 : Fin 2) : Int)).toNat = c.val
        rw [hs1, hw1]; omega
  · rename_i h
    refine iff_of_false (by simp) ?_
    rintro ⟨hv', -⟩
    apply h
    intro a
    match a with
    | ⟨0, _⟩ =>
      show 0 ≤ (rowScatterDims N C R wf).start (ix2 k c') idx (0 : Fin 2)
          + ((rowScatterDims N C R wf).window (ix2 k c') (0 : Fin 2) : Int)
        ∧ (rowScatterDims N C R wf).start (ix2 k c') idx (0 : Fin 2)
          + ((rowScatterDims N C R wf).window (ix2 k c') (0 : Fin 2) : Int) < (N : Int)
      rw [hs0, hw0, hv']; omega
    | ⟨1, _⟩ =>
      show 0 ≤ (rowScatterDims N C R wf).start (ix2 k c') idx (1 : Fin 2)
          + ((rowScatterDims N C R wf).window (ix2 k c') (1 : Fin 2) : Int)
        ∧ (rowScatterDims N C R wf).start (ix2 k c') idx (1 : Fin 2)
          + ((rowScatterDims N C R wf).window (ix2 k c') (1 : Fin 2) : Int) < (C : Int)
      rw [hs1, hw1]; omega

/-- THE ROW SCATTER-ADD READ AT `(v, c)`, at the ideal instance: the operand's element plus column `c` of every
    update row whose scatter index, read signed, is `v`. -/
theorem scatterAdd_row_apply {N C R w : Nat}
    (wf : ScatterDims.WF ⟨2, ![N, C]⟩ ⟨2, ![R, 1]⟩ ⟨2, ![R, C]⟩ [1] [0] [0] 1) {φ : FTy}
    (x : FVec Ideal ⟨2, ![N, C]⟩ φ) (idx : IVec ⟨2, ![R, 1]⟩ w) (upd : FVec Ideal ⟨2, ![R, C]⟩ φ)
    (v : Fin N) (c : Fin C) :
    Host.scatterAdd (F := Ideal) (rowScatterDims N C R wf) x idx upd (ix2 v c)
      = x (ix2 v c) + ∑ k : Fin R, if (idx (ix2 k (0 : Fin 1))).toInt = (v.val : Int) then upd (ix2 k c) else 0 := by
  show Ideal.hostScatterAdd (rowScatterDims N C R wf) x idx upd (ix2 v c) = _
  unfold Ideal.hostScatterAdd
  congr 1
  rw [Finset.sum_filter, sum_idx2]
  refine Finset.sum_congr rfl fun k _ => ?_
  simp only [rowScatter_resultIdx?_eq_some]
  by_cases hk : (idx (ix2 k (0 : Fin 1))).toInt = (v.val : Int)
  · have hcg : ∀ b : Fin C, (if (idx (ix2 k (0 : Fin 1))).toInt = (v.val : Int) ∧ b = c then upd (ix2 k b) else 0)
        = if b = c then upd (ix2 k b) else 0 := fun b => if_congr (and_iff_right hk) rfl rfl
    rw [if_pos hk, Finset.sum_congr rfl (fun b _ => hcg b),
      Finset.sum_ite_eq' Finset.univ c (fun b => upd (ix2 k b)), if_pos (Finset.mem_univ c)]
  · rw [if_neg hk]
    exact Finset.sum_eq_zero fun b _ => if_neg (fun h => hk h.1)

/-- The same for any dimension numbers whose fields are those of a scatter of rows. -/
theorem scatterAdd_row_apply_of {N C R w : Nat} (d : ScatterDims ⟨2, ![N, C]⟩ ⟨2, ![R, 1]⟩ ⟨2, ![R, C]⟩)
    (h1 : d.updateWindowDims = [1]) (h2 : d.insertedWindowDims = [0]) (h3 : d.scatterDimsToOperandDims = [0])
    (h4 : d.indexVectorDim = 1) {φ : FTy}
    (x : FVec Ideal ⟨2, ![N, C]⟩ φ) (idx : IVec ⟨2, ![R, 1]⟩ w) (upd : FVec Ideal ⟨2, ![R, C]⟩ φ)
    (v : Fin N) (c : Fin C) :
    Host.scatterAdd (F := Ideal) d x idx upd (ix2 v c)
      = x (ix2 v c) + ∑ k : Fin R, if (idx (ix2 k (0 : Fin 1))).toInt = (v.val : Int) then upd (ix2 k c) else 0 := by
  obtain ⟨uw, iw, sd, iv, wf⟩ := d
  dsimp only at h1 h2 h3 h4
  subst h1 h2 h3 h4
  exact scatterAdd_row_apply wf x idx upd v c

/-! ## A scatter that adds scalars into a vector -/

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scatter of scalars into a vector: operand `[N]`, scatter indices `[R, 1]`, updates
    `[R]`; the operand's one axis is inserted and indexed, the updates have no window axis. -/
abbrev vecScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- Update `k`'s one-element window starts at the scatter index `idx[k, 0]` read signed. -/
theorem vecScatter_start {N R w : Nat}
    (wf : ScatterDims.WF ⟨1, ![N]⟩ ⟨2, ![R, 1]⟩ ⟨1, ![R]⟩ [] [0] [0] 1)
    (idx : IVec ⟨2, ![R, 1]⟩ w) (k : Fin R) :
    (vecScatterDims N R wf).start (ix1 k) idx (0 : Fin 1) = (idx (ix2 k (0 : Fin 1))).toInt := by
  unfold ScatterDims.start
  rw [dif_pos (show (0 : Fin 1) ∈ (vecScatterDims N R wf).scatterDimsToOperandDims from List.mem_singleton.mpr rfl)]
  have hsi : (vecScatterDims N R wf).siIdx (ix1 k) ⟨List.idxOf (0 : Fin 1) (vecScatterDims N R wf).scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- The window coordinate on the operand's one, inserted axis is zero. -/
theorem vecScatter_window {N R : Nat}
    (wf : ScatterDims.WF ⟨1, ![N]⟩ ⟨2, ![R, 1]⟩ ⟨1, ![R]⟩ [] [0] [0] 1)
    (j : (⟨1, ![R]⟩ : Shape).Idx) :
    (vecScatterDims N R wf).window j (0 : Fin 1) = 0 := by
  unfold ScatterDims.window
  exact dif_neg (fun h => ((mem_kept _ _).mp h) (List.mem_singleton.mpr rfl))

/-- Update `k` lands on operand element `v` exactly when its scatter index, read signed, is `v`. -/
theorem vecScatter_resultIdx?_eq_some {N R w : Nat}
    (wf : ScatterDims.WF ⟨1, ![N]⟩ ⟨2, ![R, 1]⟩ ⟨1, ![R]⟩ [] [0] [0] 1)
    (idx : IVec ⟨2, ![R, 1]⟩ w) (k : Fin R) (v : Fin N) :
    (vecScatterDims N R wf).resultIdx? (ix1 k) idx = some (ix1 v)
      ↔ (idx (ix2 k (0 : Fin 1))).toInt = (v.val : Int) := by
  have hs0 := vecScatter_start wf idx k
  have hw0 := vecScatter_window wf (ix1 k)
  have hv := v.isLt
  unfold ScatterDims.resultIdx?
  split
  · rename_i h
    rw [Option.some.injEq]
    constructor
    · intro hf
      have h0 : ((vecScatterDims N R wf).start (ix1 k) idx (0 : Fin 1)
          + ((vecScatterDims N R wf).window (ix1 k) (0 : Fin 1) : Int)).toNat = v.val :=
        congrArg Fin.val (congrFun hf (0 : Fin 1))
      have hh := (h (0 : Fin 1)).1
      rw [hs0, hw0] at h0 hh
      omega
    · intro hv'
      funext a
      refine Fin.ext ?_
      match a with
      | ⟨0, _⟩ =>
        show ((vecScatterDims N R wf).start (ix1 k) idx (0 : Fin 1)
          + ((vecScatterDims N R wf).window (ix1 k) (0 : Fin 1) : Int)).toNat = v.val
        rw [hs0, hw0, hv']; omega
  · rename_i h
    refine iff_of_false (by simp) ?_
    intro hv'
    apply h
    intro a
    match a with
    | ⟨0, _⟩ =>
      show 0 ≤ (vecScatterDims N R wf).start (ix1 k) idx (0 : Fin 1)
          + ((vecScatterDims N R wf).window (ix1 k) (0 : Fin 1) : Int)
        ∧ (vecScatterDims N R wf).start (ix1 k) idx (0 : Fin 1)
          + ((vecScatterDims N R wf).window (ix1 k) (0 : Fin 1) : Int) < (N : Int)
      rw [hs0, hw0, hv']; omega

/-- THE SCALAR SCATTER-ADD READ AT `v`, at the ideal instance: the operand's element plus every update whose scatter
    index, read signed, is `v`. -/
theorem scatterAdd_vec_apply {N R w : Nat}
    (wf : ScatterDims.WF ⟨1, ![N]⟩ ⟨2, ![R, 1]⟩ ⟨1, ![R]⟩ [] [0] [0] 1) {φ : FTy}
    (x : FVec Ideal ⟨1, ![N]⟩ φ) (idx : IVec ⟨2, ![R, 1]⟩ w) (upd : FVec Ideal ⟨1, ![R]⟩ φ) (v : Fin N) :
    Host.scatterAdd (F := Ideal) (vecScatterDims N R wf) x idx upd (ix1 v)
      = x (ix1 v) + ∑ k : Fin R, if (idx (ix2 k (0 : Fin 1))).toInt = (v.val : Int) then upd (ix1 k) else 0 := by
  show Ideal.hostScatterAdd (vecScatterDims N R wf) x idx upd (ix1 v) = _
  unfold Ideal.hostScatterAdd
  congr 1
  rw [Finset.sum_filter, sum_idx1]
  refine Finset.sum_congr rfl fun k _ => ?_
  simp only [vecScatter_resultIdx?_eq_some]

/-- The same for any dimension numbers whose fields are those of a scatter of scalars into a vector. -/
theorem scatterAdd_vec_apply_of {N R w : Nat} (d : ScatterDims ⟨1, ![N]⟩ ⟨2, ![R, 1]⟩ ⟨1, ![R]⟩)
    (h1 : d.updateWindowDims = []) (h2 : d.insertedWindowDims = [0]) (h3 : d.scatterDimsToOperandDims = [0])
    (h4 : d.indexVectorDim = 1) {φ : FTy}
    (x : FVec Ideal ⟨1, ![N]⟩ φ) (idx : IVec ⟨2, ![R, 1]⟩ w) (upd : FVec Ideal ⟨1, ![R]⟩ φ) (v : Fin N) :
    Host.scatterAdd (F := Ideal) d x idx upd (ix1 v)
      = x (ix1 v) + ∑ k : Fin R, if (idx (ix2 k (0 : Fin 1))).toInt = (v.val : Int) then upd (ix1 k) else 0 := by
  obtain ⟨uw, iw, sd, iv, wf⟩ := d
  dsimp only at h1 h2 h3 h4
  subst h1 h2 h3 h4
  exact scatterAdd_vec_apply wf x idx upd v

/-! ## Extended-real arithmetic -/

/-- A natural number times an extended real is the repeated sum. -/
theorem natCast_mul_eq_nsmul (n : ℕ) (x : EReal) : ((n : ℝ) : EReal) * x = n • x := by
  induction n with
  | zero => simp
  | succ n ih =>
    have hn : (0 : EReal) ≤ ((n : ℝ) : EReal) := EReal.coe_nonneg.mpr (Nat.cast_nonneg n)
    rw [Nat.cast_succ, EReal.coe_add, EReal.coe_one,
      EReal.right_distrib_of_nonneg (a := ((n : ℝ) : EReal)) (b := 1) (c := x) hn zero_le_one, ih, one_mul, succ_nsmul]

/-- A sum over the indices that satisfy `p` of `A k + x` is the sum of the `A k` plus their number times `x`
    (the count is a sum of ones, so it is nonnegative and multiplication distributes over it). -/
theorem sum_ite_add_const {K : Type*} [Fintype K] (p : K → Prop) [DecidablePred p] (A : K → EReal) (x : EReal) :
    ∑ k, (if p k then A k + x else 0) = (∑ k, if p k then A k else 0) + (∑ k, if p k then (1 : EReal) else 0) * x := by
  classical
  have key : ∀ s : Finset K, ∑ k ∈ s, (if p k then A k + x else 0)
      = (∑ k ∈ s, if p k then A k else 0) + (∑ k ∈ s, if p k then (1 : EReal) else 0) * x := by
    intro s
    induction s using Finset.induction_on with
    | empty => simp
    | insert a s ha ih =>
      rw [Finset.sum_insert ha, Finset.sum_insert ha, Finset.sum_insert ha, ih]
      have hnn : (0 : EReal) ≤ ∑ k ∈ s, if p k then (1 : EReal) else 0 :=
        Finset.sum_nonneg fun k _ => by split <;> simp
      by_cases hp : p a
      · rw [if_pos hp, if_pos hp, if_pos hp, EReal.right_distrib_of_nonneg zero_le_one hnn, one_mul]
        exact add_add_add_comm _ _ _ _
      · rw [if_neg hp, if_neg hp, if_neg hp, zero_add, zero_add, zero_add]
  exact key Finset.univ

end Cert.LibIndex

end
-- ==== Proof.Law.lean ====
/-
  The arithmetic that joins the two poolings.

  An extended real that is a real number stays one under sums, products and maxima, so the perceptron of real inputs is
  real (`h2_real`), and the aggregated messages of a real `x` are real (`agg_real`: each entry is zero plus a finite sum of
  entries of `x`). For a real `h` the remainder `h - h` is zero, so the second of the kernel's two products adds nothing, and
  a 0/1 factor times `h` is `h` or `0`: the kernel's sum over two halves, 25 tiles and 1000 rows of a tile is the sum over
  all 50000 nodes (`pool_law`).
-/
import proofs.«404856_j52467320488062_3_alg».proof.Proof.Spec
import proofs.«404856_j52467320488062_3_alg».proof.Proof.LibIndex
import proofs.«404856_j52467320488062_3_alg».proof.Proof.LibBlockSum
import Idealize.ShloMosaic.PureOps.Ideal.Laws
import Mathlib.Data.EReal.Operations
import Mathlib.Algebra.BigOperators.Group.Finset.Basic

noncomputable section

open scoped BigOperators

namespace Cert.Law

open Idealize.ShloMosaic Idealize.ShloMosaic.ValueIdx Cert.LibBlockSum

/-! ## Extended reals that are real numbers -/

/-- An extended real that is a real number. -/
def IsReal (x : EReal) : Prop := ∃ r : ℝ, x = (r : EReal)

theorem IsReal.zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max_zero {x : EReal} (hx : IsReal x) : IsReal (max x 0) := by
  obtain ⟨a, rfl⟩ := hx
  exact ⟨max a 0, by rw [← EReal.coe_zero]; exact (EReal.coe_strictMono.monotone.map_max).symm⟩

theorem IsReal.sum {ι : Type} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

theorem IsReal.ite {p : Prop} [Decidable p] {x y : EReal} (hx : IsReal x) (hy : IsReal y) : IsReal (if p then x else y) := by
  split <;> assumption

/-- A real number minus itself is zero (on the extended reals this fails at the infinities). -/
theorem IsReal.sub_self {x : EReal} (hx : IsReal x) : x - x = 0 := by
  obtain ⟨a, rfl⟩ := hx
  rw [← EReal.coe_sub, _root_.sub_self, EReal.coe_zero]

/-! ## The perceptron of real inputs is real -/

theorem h2_real (x a : FVec Ideal Cert.Pool.SX .f32) (W1 : FVec Ideal Cert.Pool.SW1 .f32) (b1 : FVec Ideal Cert.Pool.SB1 .f32)
    (W2 : FVec Ideal Cert.Pool.SW2 .f32) (b2 : FVec Ideal Cert.Pool.SD .f32)
    (hx : ∀ i, IsReal (x i)) (ha : ∀ i, IsReal (a i)) (hW1 : ∀ i, IsReal (W1 i)) (hb1 : ∀ i, IsReal (b1 i))
    (hW2 : ∀ i, IsReal (W2 i)) (hb2 : ∀ i, IsReal (b2 i)) (n : Fin 50000) (d : Fin 128) :
    IsReal (Cert.Pool.h2 x a W1 b1 W2 b2 n d) := by
  unfold Cert.Pool.h2
  refine IsReal.add (IsReal.sum _ _ fun k _ => IsReal.mul (IsReal.max_zero (IsReal.add (IsReal.sum _ _ fun j _ => ?_) (hb1 _))) (hW2 _)) (hb2 _)
  exact IsReal.mul (IsReal.add (hx _) (ha _)) (hW1 _)

/-! ## The aggregated messages of a real `x` are real -/

theorem agg_real (x : FVec Ideal Cert.Pool.SX .f32) (ei : IVec Cert.Pool.SE 32) (hx : ∀ i, IsReal (x i)) (i : Cert.Pool.SX.Idx) :
    IsReal (Cert.Pool.agg (F := Ideal) x ei i) := by
  -- the index by its two coordinates, a node and a feature
  obtain ⟨v, f, rfl⟩ : ∃ (v : Fin 50000) (f : Fin 128), i = ix2 v f := ⟨i 0, i 1, eq_ix2 i⟩
  -- the scatter that adds rows, read at (v, f): the zero matrix's entry plus the gathered entries of the edges into v
  have key : Cert.Pool.agg (F := Ideal) x ei (ix2 v f) = _ :=
    Cert.LibIndex.scatterAdd_row_apply_of (N := 50000) (C := 128) (R := 800000) (w := 32) Cert.Pool.scatterRows rfl rfl rfl rfl
      (φ := .f32) _ (Cert.Pool.dstIdx ei) (Host.gather Cert.Pool.gatherRows x (Cert.Pool.srcIdx ei)) v f
  rw [key]
  refine IsReal.add ?_ (IsReal.sum _ _ fun k _ => IsReal.ite ?_ IsReal.zero)
  · show IsReal (Ideal.ofBits .f32 0x00000000#32)
    rw [Ideal.ofBits_zero_f32]; exact IsReal.zero
  · -- the gather of rows, read at (k, f): an entry of x
    have g : Host.gather Cert.Pool.gatherRows x (Cert.Pool.srcIdx ei) (ix2 k f) = _ :=
      Cert.LibIndex.gather_row_apply_of (N := 50000) (C := 128) (R := 800000) (w := 32) (by norm_num) Cert.Pool.gatherRows
        rfl rfl rfl rfl rfl rfl rfl x (Cert.Pool.srcIdx ei) k f
    rw [g]
    exact hx _

/-! ## The pooling law -/

/-- Row `r` of tile `i` of half `c` of the 50000 nodes: node `1000 * (25 * c + i) + r`. -/
def node (c : Fin 2) (i : Fin 25) (r : Fin 1000) : Fin 50000 :=
  blockIdx (B := 50) (R := 1000) (N := 50000) (by norm_num) (blockIdx (B := 2) (R := 25) (N := 50) (by norm_num) c i) r

theorem node_val (c : Fin 2) (i : Fin 25) (r : Fin 1000) : (node c i r).val = 1000 * (25 * c.val + i.val) + r.val := rfl

/-- A sum over the nodes, taken half by half, tile by tile, row by row. -/
theorem sum_nodes {M : Type} [AddCommMonoid M] (f : Fin 50000 → M) :
    ∑ c : Fin 2, ∑ i : Fin 25, ∑ r : Fin 1000, f (node c i r) = ∑ n : Fin 50000, f n := by
  rw [sum_blocks (B := 50) (R := 1000) (N := 50000) (by norm_num) f,
    sum_blocks (B := 2) (R := 25) (N := 50) (by norm_num) (fun t => ∑ r : Fin 1000, f (blockIdx (B := 50) (R := 1000) (N := 50000) (by norm_num) t r))]
  rfl

/-- THE POOLING LAW. For a real-valued `H`: the 0/1 factor `[p n]` times `H n`, plus the same factor times the remainder
    `H n - H n`, summed over halves, tiles and rows, is the sum of `H n` over the nodes with `p n`. -/
theorem pool_law (p : Fin 50000 → Prop) [DecidablePred p] (H : Fin 50000 → EReal) (hH : ∀ n, IsReal (H n)) :
    ∑ c : Fin 2, ∑ i : Fin 25,
        ((∑ r : Fin 1000, (if p (node c i r) then (1 : EReal) else 0) * H (node c i r))
          + ∑ r : Fin 1000, (if p (node c i r) then (1 : EReal) else 0) * (H (node c i r) - H (node c i r)))
      = ∑ n : Fin 50000, if p n then H n else 0 := by
  rw [← sum_nodes (fun n => if p n then H n else 0)]
  refine Finset.sum_congr rfl fun c _ => Finset.sum_congr rfl fun i _ => ?_
  have h0 : ∑ r : Fin 1000, (if p (node c i r) then (1 : EReal) else 0) * (H (node c i r) - H (node c i r)) = 0 :=
    Finset.sum_eq_zero fun r _ => by rw [(hH _).sub_self, mul_zero]
  rw [h0, add_zero]
  exact Finset.sum_congr rfl fun r _ => ite_one_zero_mul _ _

end Cert.Law

end
-- ==== Proof.KerAcc.lean ====
/-
  The accumulation across the grid, at the ideal instance.

  At grid point `t` the body adds to entry (g, d) of the output block the point's term: over the 1000 rows r of tile `t`,
  the 0/1 factor [g = batch(1000·t + r)] times the perceptron `h` of node 1000·t + r, plus the same factor times the
  remainder `h - h`. The block is zero before the first point of each half of the grid, so after the last point of half
  `h` it holds the sum of the 25 terms of that half (`half_sum`); the host adds the two halves (`sums_apply`). When the
  perceptron is real-valued the remainders vanish, and the total is the sum of `h n d` over the nodes n of graph g
  (`sums_eq_pooled`): the reference's pooled sum.
-/
import proofs.«404856_j52467320488062_3_alg».proof.Proof.KerBody
import proofs.«404856_j52467320488062_3_alg».proof.Proof.KerBlocks
import proofs.«404856_j52467320488062_3_alg».proof.Proof.KerFinal
import proofs.«404856_j52467320488062_3_alg».proof.Proof.LibAcc
import proofs.«404856_j52467320488062_3_alg».proof.Proof.LibBlockSum
import proofs.«404856_j52467320488062_3_alg».proof.Proof.LibReduce
import proofs.«404856_j52467320488062_3_alg».proof.Proof.Law

noncomputable section

open scoped BigOperators

open Idealize.ShloMosaic Idealize.ShloMosaic.TcCoe Idealize.SL.Sem Idealize.ShloMosaic.ValueIdx

namespace Cert.KernelIdeal.Acc

open Cert.KernelIdeal Cert.KernelIdeal.Gen Cert.KernelIdeal.GenP Cert.KernelIdeal.Blocks

variable (m : (ℓ : Loc nD τ sig) → Buf (Elt Ideal) ℓ) (c : Dev nD)

/-! ## The launch contents, by name -/

abbrev X : FVec Ideal S50000x128 .f32 := m ((c : Thread nD τ).loc main_arg0)
abbrev E : IVec S2x800000 32 := m ((c : Thread nD τ).loc main_arg1)
abbrev B : IVec S50000 32 := m ((c : Thread nD τ).loc main_arg2)
abbrev W1 : FVec Ideal S128x256 .f32 := m ((c : Thread nD τ).loc main_arg3)
abbrev B1 : FVec Ideal S256 .f32 := m ((c : Thread nD τ).loc main_arg4)
abbrev W2 : FVec Ideal S256x128 .f32 := m ((c : Thread nD τ).loc main_arg5)
abbrev B2 : FVec Ideal S128 .f32 := m ((c : Thread nD τ).loc main_arg6)

/-- The two halves' accumulators after their last points, as one array of its literal type. -/
abbrev halvesV : FVec Ideal S2x512x128 .f32 := Final.halves m c

/-- The perceptron of node `n`, feature `d`, over the launch contents. -/
def H (n : Fin 50000) (d : Fin 128) : EReal :=
  Cert.Pool.h2 (X m c) (Cert.Pool.agg (X m c) (E m c)) (W1 m c) (B1 m c) (W2 m c) (B2 m c) n d

/-- The 0/1 factor: node `n` is in graph `g`. -/
def ind (g : Fin 512) (n : Fin 50000) : EReal := if BitVec.ofNat 32 g.val = B m c (ix1 n) then 1 else 0

/-- What grid point `t` adds to entry (g, d). -/
def term (g : Fin 512) (d : Fin 128) (t : Fin cfg0.N) : EReal :=
  (∑ r : Fin 1000, ind m c g (nodeAt t r) * H m c (nodeAt t r) d)
    + ∑ r : Fin 1000, ind m c g (nodeAt t r) * (H m c (nodeAt t r) d - H m c (nodeAt t r) d)

/-! ## One grid point -/

/-- The tile's perceptron is the nodes' perceptron at the tile's rows. -/
theorem tileH_eq (t : Fin cfg0.N) (r : Fin 1000) (d : Fin 128) :
    Body.tileH (xblk m c t) (ablk m c t) (w1blk m c t) (b1blk m c t) (w2blk m c t) (b2blk m c t) r d = H m c (nodeAt t r) d := by
  unfold Body.tileH H Cert.Pool.h2
  simp only [xblk_apply, ablk_apply, w1blk_apply, b1blk_apply, w2blk_apply, b2blk_apply]

/-- The block a point leaves, at (g, d): what it found plus the point's term. -/
theorem step_term (t : Fin cfg0.N) (prev : Vec Ideal S1x512x128 .f32) (g : Fin 512) (d : Fin 128) :
    Body.step (F := Ideal) (xblk m c t) (ablk m c t) (bblk m c t) (w1blk m c t) (b1blk m c t) (w2blk m c t) (b2blk m c t) prev
        (ix3 (0 : Fin 1) g d)
      = prev (ix3 (0 : Fin 1) g d) + term m c g d t := by
  refine (Body.step_apply (xblk m c t) (ablk m c t) (bblk m c t) (w1blk m c t) (b1blk m c t) (w2blk m c t) (b2blk m c t) prev g d).trans ?_
  unfold term ind
  simp only [tileH_eq, bblk_apply]

/-- At the first point of a half the block holds zero plus the point's term. -/
theorem acc_reset (g : Fin 512) (d : Fin 128) (t : Fin cfg0.N) (h0 : t.val % 25 = 0) :
    outsAt0 m c t.val t.isLt (ix3 (0 : Fin 1) g d) = 0 + term m c g d t := by
  refine (congrFun (outsAt0_A m c t h0) (ix3 (0 : Fin 1) g d)).trans ?_
  refine (congrFun (Body.out_A c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) ((hcond0_0 t).mpr h0)
    (xblk m c t) (ablk m c t) (bblk m c t) (w1blk m c t) (b1blk m c t) (w2blk m c t) (b2blk m c t)) (ix3 (0 : Fin 1) g d)).trans ?_
  refine (step_term m c t (k0_pay2 (F := Ideal)) g d).trans ?_
  rw [Body.pay2_apply]

/-- At every other point it holds what the point before left plus the point's term. -/
theorem acc_step (g : Fin 512) (d : Fin 128) (t : Fin cfg0.N) (h0 : ¬t.val % 25 = 0) :
    outsAt0 m c t.val t.isLt (ix3 (0 : Fin 1) g d)
      = outsAt0 m c (t.val - 1) (Nat.lt_of_le_of_lt (Nat.sub_le _ _) t.isLt) (ix3 (0 : Fin 1) g d) + term m c g d t := by
  refine (congrFun (outsAt0_B m c t h0) (ix3 (0 : Fin 1) g d)).trans ?_
  refine (congrFun (Body.out_B c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (fun h => h0 ((hcond0_0 t).mp h))
    (xblk m c t) (ablk m c t) (bblk m c t) (w1blk m c t) (b1blk m c t) (w2blk m c t) (b2blk m c t)
    (outsAt0 m c (t.val - 1) (Nat.lt_of_le_of_lt (Nat.sub_le _ _) t.isLt))) (ix3 (0 : Fin 1) g d)).trans ?_
  exact step_term m c t _ g d

/-! ## A half of the grid -/

theorem lt_N {n : ℕ} (h : n < 2 * 25) : n < cfg0.N := lt_of_lt_of_eq h (show 2 * 25 = cfg0.N from N_0.symm)

/-- After the last point of half `h` the block holds, at (g, d), the sum of the half's 25 terms. -/
theorem half_sum (h : Fin 2) (g : Fin 512) (d : Fin 128) :
    halvesV m c (ix3 h g d)
      = ∑ i : Fin 25, term m c g d ⟨h.val * 25 + i.val, lt_N (Cert.LibAcc.idx_lt h i.isLt)⟩ := by
  have key := Cert.LibAcc.acc_last_zero 25 2
    (fun n hn => outsAt0 m c n (lt_N hn) (ix3 (0 : Fin 1) g d))
    (fun n hn => term m c g d ⟨n, lt_N hn⟩) (0 : EReal) rfl
    (fun n hn h0 => acc_reset m c g d ⟨n, lt_N hn⟩ h0)
    (fun n hn h0 => acc_step m c g d ⟨n, lt_N hn⟩ h0) (by norm_num) h
  refine Eq.trans ?_ key
  show outsAt0 m c (25 * h.val + 24) _ (ix3 (0 : Fin 1) g d) = outsAt0 m c (h.val * 25 + (25 - 1)) _ (ix3 (0 : Fin 1) g d)
  exact congrFun (Final.outsAt0_congr m c (by omega) _ _) _

/-! ## The two halves added -/

/-- The pooled sums of the kernel's program, at (g, d): zero plus the two halves' blocks. -/
theorem sums_apply (g : Fin 512) (d : Fin 128) :
    Final.sums (halvesV m c) (ix2 g d) = 0 + ∑ h : Fin 2, halvesV m c (ix3 h g d) := by
  unfold Final.sums
  refine (Cert.LibReduce.reduceAdd_lead_apply (A := 2) (B := 512) (C := 128) (φ := .f32) (halvesV m c)
    (constant S_ .f32 0x00000000#32) reducesTo_S2x512x128_S512x128_d0 h_S_ g d).trans ?_
  exact congrArg (· + ∑ h : Fin 2, halvesV m c (ix3 h g d)) Ideal.ofBits_zero_f32

/-- Row `r` of tile `i` of half `h`, as the pooling law names it. -/
theorem node_eq (h : Fin 2) (i : Fin 25) (r : Fin 1000) :
    nodeAt ⟨h.val * 25 + i.val, lt_N (Cert.LibAcc.idx_lt h i.isLt)⟩ r = Cert.Law.node h i r := by
  refine Fin.ext ?_
  rw [nodeAt_val, Cert.Law.node_val]
  show 1000 * (h.val * 25 + i.val) + r.val = 1000 * (25 * h.val + i.val) + r.val
  omega

/-- THE KERNEL'S POOLED SUMS ARE THE REFERENCE'S: for a real-valued perceptron, zero plus the sum over the nodes of graph
    `g` of their perceptron at feature `d`. -/
theorem sums_eq_pooled (hH : ∀ n d, Cert.Law.IsReal (H m c n d)) (g : Fin 512) (d : Fin 128) :
    Final.sums (F := Ideal) (Final.halves m c) (ix2 g d) = 0 + Cert.Pool.pooled (B m c) (H m c) g d := by
  refine (sums_apply m c g d).trans ?_
  refine congrArg (fun x : EReal => 0 + x) ?_
  have hp : ∀ n : Fin 50000, (BitVec.ofNat 32 g.val = B m c (ix1 n)) ↔ (B m c (ix1 n)).toInt = (g.val : Int) := fun n =>
    eq_comm.trans (Cert.LibBlockSum.eq_ofNat_iff_toInt_eq _ _ (by have := g.isLt; omega))
  have e1 : Cert.Pool.pooled (B m c) (H m c) g d
      = ∑ n : Fin 50000, if BitVec.ofNat 32 g.val = B m c (ix1 n) then H m c n d else 0 :=
    Finset.sum_congr rfl fun n _ => if_congr (hp n).symm rfl rfl
  rw [e1, ← Cert.Law.pool_law (fun n => BitVec.ofNat 32 g.val = B m c (ix1 n)) (fun n => H m c n d) (fun n => hH n d)]
  refine Finset.sum_congr rfl fun h _ => ?_
  refine (half_sum m c h g d).trans ?_
  refine Finset.sum_congr rfl fun i _ => ?_
  unfold term ind
  simp only [node_eq]

end Cert.KernelIdeal.Acc

end
-- ==== Proof.RefRun.lean ====
/-
  The reference program's run, read back as a fold of its operations.

  The reference is a host program of StableHLO operations only: a scatter-add of gathered rows onto the node
  features, a two-layer perceptron (matrix product, bias, rectifier, matrix product, bias), the mean of the rows
  by segment (a scatter-add of the rows and of ones, the count clamped below by one), then a normalisation of the
  512 segment means down each of the 128 columns — the column mean, the column variance, the quotient by the
  square root of the variance plus a small constant — scaled, shifted and rectified.  The variance is a function
  of the module (it reduces the squared deviations and divides by the count minus a correction, which here is
  the constant zero) and it ends in a call of a second function, the selection of that quotient where the
  divisor is positive and of a not-a-number constant elsewhere.

  A call means its callee's body on the call's operands, each value of the body in a buffer of that call.  So
  the program is ONE straight line of operations: the statements of @main up to the call, the nineteen of the
  variance over the call's buffers, the three of the selection over the inner call's buffers, and the
  statements of @main after the call.  This module writes that line down as a list, proves the program equal to
  the list run in order, and reads the run back from the library's theorem for straight lines: every weakly fair
  execution terminates and leaves every buffer at the fold of the operations' results over the contents the
  buffers had at launch.
-/
import proofs.«404856_j52467320488062_3_alg».proof.Proof.Gen.ReferenceIdeal
import Idealize.ShloMosaic.Lib.StableHlo.Run

noncomputable section

namespace Cert.ReferenceIdeal.Hand

open Idealize.ShloMosaic Idealize.ShloMosaic.TcCoe Idealize.SL.Sem Idealize.ShloMosaic.StableHlo Cert.ReferenceIdeal Cert.ReferenceIdeal.Gen

variable {F : FTy → Type} [FloatOps F]

/-- The program's ninety-two operations in program order.  Fifty-one of @main: the two rows of the edge table
    (sources, targets), the source indices wrapped into range (a negative index has the row count added), the
    gather of the source rows, their scatter-add at the target rows onto zero, the sum with the features, the
    perceptron, the scatter-add of its rows by segment, the segment counts (a scatter-add of ones) clamped below
    by one, the quotient, and the column mean of the 512 quotients (a sum over the rows divided by 512).  Then the
    variance's nineteen over the record `main_call0` (the column mean again, the squared deviations, their sum over
    the rows, the divisor 512 minus the converted correction, the quotient, the test that the divisor is positive,
    the not-a-number constant) and the selection's three over `main_call0.call0` (the constant at its own type,
    its broadcast, the select).  Then nineteen of @main: the deviations from the column mean, the square root of
    the variance plus the small constant, the quotient, the scale, the shift, and the maximum with zero. -/
abbrev ops : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst (constant S_ .f32 0x00000000#32),
    StableHlo.unary main_cst main_v11 (broadcastInDim S50000x128 ![] bcast_S_S50000x128 : (⟨S_, .f32⟩ : BufTy).Contents (Elt F) → (⟨S50000x128, .f32⟩ : BufTy).Contents (Elt F)),
    StableHlo.unary main_v3 main_v12 (broadcastInDim S800000x1 ![0] bcast_S800000_S800000x1_0 : (⟨S800000, .i32⟩ : BufTy).Contents (Elt F) → (⟨S800000x1, .i32⟩ : BufTy).Contents (Elt F)),
    StableHlo.ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_arg0 main_v13 main_v14 (addf : (⟨S50000x128, .f32⟩ : BufTy).Contents (Elt F) → (⟨S50000x128, .f32⟩ : BufTy).Contents (Elt F) → (⟨S50000x128, .f32⟩ : BufTy).Contents (Elt F)),
    StableHlo.binary main_v14 main_arg3 main_v15 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.unary main_arg4 main_v16 (broadcastInDim S1x256 ![1] bcast_S256_S1x256_1 : (⟨S256, .f32⟩ : BufTy).Contents (Elt F) → (⟨S1x256, .f32⟩ : BufTy).Contents (Elt F)),
    StableHlo.unary main_v16 main_v17 (broadcastInDim S50000x256 ![0, 1] bcast_S1x256_S50000x256_0_1 : (⟨S1x256, .f32⟩ : BufTy).Contents (Elt F) → (⟨S50000x256, .f32⟩ : BufTy).Contents (Elt F)),
    StableHlo.binary main_v15 main_v17 main_v18 (addf : (⟨S50000x256, .f32⟩ : BufTy).Contents (Elt F) → (⟨S50000x256, .f32⟩ : BufTy).Contents (Elt F) → (⟨S50000x256, .f32⟩ : BufTy).Contents (Elt F)),
    StableHlo.nullary main_cst_1 (constant S_ .f32 0x00000000#32),
    StableHlo.unary main_cst_1 main_v19 (broadcastInDim S50000x256 ![] bcast_S_S50000x256 : (⟨S_, .f32⟩ : BufTy).Contents (Elt F) → (⟨S50000x256, .f32⟩ : BufTy).Contents (Elt F)),
    StableHlo.binary main_v18 main_v19 main_v20 (maximumf : (⟨S50000x256, .f32⟩ : BufTy).Contents (Elt F) → (⟨S50000x256, .f32⟩ : BufTy).Contents (Elt F) → (⟨S50000x256, .f32⟩ : BufTy).Contents (Elt F)),
    StableHlo.binary main_v20 main_arg5 main_v21 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg6 main_v22 (broadcastInDim S1x128 ![1] bcast_S128_S1x128_1 : (⟨S128, .f32⟩ : BufTy).Contents (Elt F) → (⟨S1x128, .f32⟩ : BufTy).Contents (Elt F)),
    StableHlo.unary main_v22 main_v23 (broadcastInDim S50000x128 ![0, 1] bcast_S1x128_S50000x128_0_1 : (⟨S1x128, .f32⟩ : BufTy).Contents (Elt F) → (⟨S50000x128, .f32⟩ : BufTy).Contents (Elt F)),
    StableHlo.binary main_v21 main_v23 main_v24 (addf : (⟨S50000x128, .f32⟩ : BufTy).Contents (Elt F) → (⟨S50000x128, .f32⟩ : BufTy).Contents (Elt F) → (⟨S50000x128, .f32⟩ : BufTy).Contents (Elt F)),
    StableHlo.nullary main_cst_2 (constant S_ .f32 0x00000000#32),
    StableHlo.unary main_cst_2 main_v25 (broadcastInDim S512x128 ![] bcast_S_S512x128 : (⟨S_, .f32⟩ : BufTy).Contents (Elt F) → (⟨S512x128, .f32⟩ : BufTy).Contents (Elt F)),
    StableHlo.unary main_arg2 main_v26 (broadcastInDim S50000x1 ![0] bcast_S50000_S50000x1_0 : (⟨S50000, .i32⟩ : BufTy).Contents (Elt F) → (⟨S50000x1, .i32⟩ : BufTy).Contents (Elt F)),
    StableHlo.ternary main_v25 main_v26 main_v24 main_v27 ((fun x i u => Host.scatterAdd scatter_S512x128_S50000x1_S50000x128_1_0_0_1 x i u) : (⟨S512x128, .f32⟩ : BufTy).Contents (Elt F) → (⟨S50000x1, .i32⟩ : BufTy).Contents (Elt F) → (⟨S50000x128, .f32⟩ : BufTy).Contents (Elt F) → (⟨S512x128, .f32⟩ : BufTy).Contents (Elt F)),
    StableHlo.nullary main_cst_3 (constant S_ .f32 0x3F800000#32),
    StableHlo.unary main_cst_3 main_v28 (broadcastInDim S50000 ![] bcast_S_S50000 : (⟨S_, .f32⟩ : BufTy).Contents (Elt F) → (⟨S50000, .f32⟩ : BufTy).Contents (Elt F)),
    StableHlo.nullary main_cst_4 (constant S_ .f32 0x00000000#32),
    StableHlo.unary main_cst_4 main_v29 (broadcastInDim S512 ![] bcast_S_S512 : (⟨S_, .f32⟩ : BufTy).Contents (Elt F) → (⟨S512, .f32⟩ : BufTy).Contents (Elt F)),
    StableHlo.unary main_arg2 main_v30 (broadcastInDim S50000x1 ![0] bcast_S50000_S50000x1_0 : (⟨S50000, .i32⟩ : BufTy).Contents (Elt F) → (⟨S50000x1, .i32⟩ : BufTy).Contents (Elt F)),
    StableHlo.ternary main_v29 main_v30 main_v28 main_v31 ((fun x i u => Host.scatterAdd scatter_S512_S50000x1_S50000_n_0_0_1 x i u) : (⟨S512, .f32⟩ : BufTy).Contents (Elt F) → (⟨S50000x1, .i32⟩ : BufTy).Contents (Elt F) → (⟨S50000, .f32⟩ : BufTy).Contents (Elt F) → (⟨S512, .f32⟩ : BufTy).Contents (Elt F)),
    StableHlo.nullary main_cst_5 (constant S_ .f32 0x3F800000#32),
    StableHlo.unary main_cst_5 main_v32 (broadcastInDim S512 ![] bcast_S_S512 : (⟨S_, .f32⟩ : BufTy).Contents (Elt F) → (⟨S512, .f32⟩ : BufTy).Contents (Elt F)),
    StableHlo.binary main_v31 main_v32 main_v33 (maximumf : (⟨S512, .f32⟩ : BufTy).Contents (Elt F) → (⟨S512, .f32⟩ : BufTy).Contents (Elt F) → (⟨S512, .f32⟩ : BufTy).Contents (Elt F)),
    StableHlo.unary main_v33 main_v34 (broadcastInDim S512x1 ![0] bcast_S512_S512x1_0 : (⟨S512, .f32⟩ : BufTy).Contents (Elt F) → (⟨S512x1, .f32⟩ : BufTy).Contents (Elt F)),
    StableHlo.unary main_v34 main_v35 (broadcastInDim S512x128 ![0, 1] bcast_S512x1_S512x128_0_1 : (⟨S512x1, .f32⟩ : BufTy).Contents (Elt F) → (⟨S512x128, .f32⟩ : BufTy).Contents (Elt F)),
    StableHlo.binary main_v27 main_v35 main_v36 (Host.divf : (⟨S512x128, .f32⟩ : BufTy).Contents (Elt F) → (⟨S512x128, .f32⟩ : BufTy).Contents (Elt F) → (⟨S512x128, .f32⟩ : BufTy).Contents (Elt F)),
    StableHlo.nullary main_cst_6 (constant S_ .f32 0x00000000#32),
    StableHlo.binary main_v36 main_cst_6 main_v37 ((fun x v => Host.reduceAdd x v reducesTo_S512x128_S128_d0 h_S_) : (⟨S512x128, .f32⟩ : BufTy).Contents (Elt F) → (⟨S_, .f32⟩ : BufTy).Contents (Elt F) → (⟨S128, .f32⟩ : BufTy).Contents (Elt F)),
    StableHlo.nullary main_cst_7 (constant S_ .f32 0x44000000#32),
    StableHlo.unary main_cst_7 main_v38 (broadcastInDim S128 ![] bcast_S_S128 : (⟨S_, .f32⟩ : BufTy).Contents (Elt F) → (⟨S128, .f32⟩ : BufTy).Contents (Elt F)),
    StableHlo.binary main_v37 main_v38 main_v39 (Host.divf : (⟨S128, .f32⟩ : BufTy).Contents (Elt F) → (⟨S128, .f32⟩ : BufTy).Contents (Elt F) → (⟨S128, .f32⟩ : BufTy).Contents (Elt F)),
    StableHlo.nullary main_c_8 (constantI S_ 32 0#32),
    StableHlo.TRef.nullary main_call0.cst (constant S_ .f32 0x00000000#32),
    StableHlo.TRef.binary (.of main_v36 : StableHlo.TRef sig ⟨S512x128, .f32⟩) main_call0.cst main_call0.v0 (fun x v => Host.reduceAdd x v reducesTo_S512x128_S128_d0 h_S_),
    StableHlo.TRef.unary main_call0.v0 main_call0.v1 (broadcastInDim S1x128 ![1] bcast_S128_S1x128_1),
    StableHlo.TRef.nullary main_call0.cst_0 (constant S_ .f32 0x44000000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S512x128 ![0, 1] bcast_S1x128_S512x128_0_1),
    StableHlo.TRef.binary (.of main_v36 : StableHlo.TRef sig ⟨S512x128, .f32⟩) main_call0.v4 main_call0.v5 subf,
    StableHlo.TRef.binary main_call0.v5 main_call0.v5 main_call0.v6 mulf,
    StableHlo.TRef.unary (.of main_c_8 : StableHlo.TRef sig ⟨S_, .i32⟩) main_call0.v7 (sitofp .f32),
    StableHlo.TRef.nullary main_call0.cst_1 (constant S_ .f32 0x44000000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S512x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v39 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S512x128 ![0, 1] bcast_S1x128_S512x128_0_1 : (⟨S1x128, .f32⟩ : BufTy).Contents (Elt F) → (⟨S512x128, .f32⟩ : BufTy).Contents (Elt F)),
    StableHlo.binary main_v36 main_v42 main_v43 (subf : (⟨S512x128, .f32⟩ : BufTy).Contents (Elt F) → (⟨S512x128, .f32⟩ : BufTy).Contents (Elt F) → (⟨S512x128, .f32⟩ : BufTy).Contents (Elt F)),
    StableHlo.nullary main_cst_9 (constant S_ .f32 0x3727C5AC#32),
    StableHlo.unary main_cst_9 main_v44 (broadcastInDim S128 ![] bcast_S_S128 : (⟨S_, .f32⟩ : BufTy).Contents (Elt F) → (⟨S128, .f32⟩ : BufTy).Contents (Elt F)),
    StableHlo.binary main_v40 main_v44 main_v45 (addf : (⟨S128, .f32⟩ : BufTy).Contents (Elt F) → (⟨S128, .f32⟩ : BufTy).Contents (Elt F) → (⟨S128, .f32⟩ : BufTy).Contents (Elt F)),
    StableHlo.unary main_v45 main_v46 (Host.sqrt : (⟨S128, .f32⟩ : BufTy).Contents (Elt F) → (⟨S128, .f32⟩ : BufTy).Contents (Elt F)),
    StableHlo.unary main_v46 main_v47 (broadcastInDim S1x128 ![1] bcast_S128_S1x128_1 : (⟨S128, .f32⟩ : BufTy).Contents (Elt F) → (⟨S1x128, .f32⟩ : BufTy).Contents (Elt F)),
    StableHlo.unary main_v47 main_v48 (broadcastInDim S512x128 ![0, 1] bcast_S1x128_S512x128_0_1 : (⟨S1x128, .f32⟩ : BufTy).Contents (Elt F) → (⟨S512x128, .f32⟩ : BufTy).Contents (Elt F)),
    StableHlo.binary main_v43 main_v48 main_v49 (Host.divf : (⟨S512x128, .f32⟩ : BufTy).Contents (Elt F) → (⟨S512x128, .f32⟩ : BufTy).Contents (Elt F) → (⟨S512x128, .f32⟩ : BufTy).Contents (Elt F)),
    StableHlo.unary main_arg7 main_v50 (broadcastInDim S1x128 ![1] bcast_S128_S1x128_1 : (⟨S128, .f32⟩ : BufTy).Contents (Elt F) → (⟨S1x128, .f32⟩ : BufTy).Contents (Elt F)),
    StableHlo.unary main_v50 main_v51 (broadcastInDim S512x128 ![0, 1] bcast_S1x128_S512x128_0_1 : (⟨S1x128, .f32⟩ : BufTy).Contents (Elt F) → (⟨S512x128, .f32⟩ : BufTy).Contents (Elt F)),
    StableHlo.binary main_v49 main_v51 main_v52 (mulf : (⟨S512x128, .f32⟩ : BufTy).Contents (Elt F) → (⟨S512x128, .f32⟩ : BufTy).Contents (Elt F) → (⟨S512x128, .f32⟩ : BufTy).Contents (Elt F)),
    StableHlo.unary main_arg8 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S512x128 ![0, 1] bcast_S1x128_S512x128_0_1 : (⟨S1x128, .f32⟩ : BufTy).Contents (Elt F) → (⟨S512x128, .f32⟩ : BufTy).Contents (Elt F)),
    StableHlo.binary main_v52 main_v54 main_v55 (addf : (⟨S512x128, .f32⟩ : BufTy).Contents (Elt F) → (⟨S512x128, .f32⟩ : BufTy).Contents (Elt F) → (⟨S512x128, .f32⟩ : BufTy).Contents (Elt F)),
    StableHlo.nullary main_cst_10 (constant S_ .f32 0x00000000#32),
    StableHlo.unary main_cst_10 main_v56 (broadcastInDim S512x128 ![] bcast_S_S512x128 : (⟨S_, .f32⟩ : BufTy).Contents (Elt F) → (⟨S512x128, .f32⟩ : BufTy).Contents (Elt F)),
    StableHlo.binary main_v55 main_v56 main_v57 (maximumf : (⟨S512x128, .f32⟩ : BufTy).Contents (Elt F) → (⟨S512x128, .f32⟩ : BufTy).Contents (Elt F) → (⟨S512x128, .f32⟩ : BufTy).Contents (Elt F)) ]

-- ninety-two binds re-associated: the rewrite under the chain recurses once per statement
set_option maxRecDepth 4096 in
set_option maxHeartbeats 1600000 in
/-- @main is that straight line.  With the two windows of @main, the variance's body and the selection's body
    unfolded at their sites, and the records at their fields, both sides are one chain of single operations once
    sequencing is re-associated to the right and the functions' closing `pure`s are absorbed. -/
theorem main_eq (c : Dev nD) : main (F := F) c = seq ops := by
  simp only [main, main_part0, main_part1, fn_var.body, fn_where.body, seq, bind_assoc, pure_bind]

/-- The signature scopes no buffer: every buffer is a tensor value's, live for the whole program. -/
theorem scopedRefs_eq : (Finset.univ.filter fun b : Ref sig .tc => b.isScoped) = ∅ := by decide

/-- The signature has no semaphore, so none is scoped. -/
theorem scopedSems_eq : (Finset.univ.filter fun sm : SemLoc sig => sm.isScoped .tc) = ∅ := by decide

/-- Every operation reads and writes TensorCore buffers only: each is one of the builders over literal
    references (a typed reference's builder is the plain one at its buffer), and those touch nothing else. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., binary_bufs_sub ..,
    binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., nullary_bufs_sub ..,
    unary_bufs_sub .., unary_bufs_sub .., ternary_bufs_sub .., nullary_bufs_sub .., unary_bufs_sub .., nullary_bufs_sub ..,
    unary_bufs_sub .., unary_bufs_sub .., ternary_bufs_sub .., nullary_bufs_sub .., unary_bufs_sub .., binary_bufs_sub ..,
    unary_bufs_sub .., unary_bufs_sub .., binary_bufs_sub .., nullary_bufs_sub .., binary_bufs_sub .., nullary_bufs_sub ..,
    unary_bufs_sub .., binary_bufs_sub .., nullary_bufs_sub ..,
    -- the variance's nineteen
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub ..,
    -- the selection's three
    unary_bufs_sub .., unary_bufs_sub .., ternary_bufs_sub ..,
    -- @main after the call
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub ..⟩

/-- At the compiled mesh, for any float values, from any memory with zero counters: every weakly fair execution
    of @main on the TensorCores terminates, and every final state has each TensorCore buffer at the operations'
    fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.RefValue.lean ====
/-
  What the reference program leaves in its result buffer, as a function of its nine arguments.

  The reference's straight line of operations is, value by value, a composition of host operations.  Read at the
  result buffer the composition splits into four pieces: the aggregated messages `agg` (the sources' rows of the
  features gathered and added into the targets' rows), the two-layer perceptron `H2` over all nodes
  (`max((x + agg)·W1 + b1, 0)·W2 + b2`, the biases broadcast along the rows), the pooled sums `sums` (row `n` of
  the perceptron's output added into row `batch n` of a zero matrix), and the `tail` (the division by the node
  counts and the normalisation of each feature over the graphs).  The argument buffers are written by no
  operation, so they keep their launch contents.

  At the ideal instance, where a float is an extended real and every operation exact, the perceptron read at
  `(n, d)` is the textbook double sum, and the pooled sums read at `(g, d)` are zero plus the sum of the rows of
  the nodes of graph `g`.
-/
import proofs.«404856_j52467320488062_3_alg».proof.Proof.RefRun
import proofs.«404856_j52467320488062_3_alg».proof.Proof.Spec
import proofs.«404856_j52467320488062_3_alg».proof.Proof.LibIndex
import proofs.«404856_j52467320488062_3_alg».proof.Proof.LibDot
import Idealize.ShloMosaic.PureOps.Ideal.Laws
import Idealize.ShloMosaic.Lib.Pipeline.Value

noncomputable section

open scoped BigOperators

namespace Cert.ReferenceIdeal.RefValue

open Idealize.ShloMosaic Idealize.ShloMosaic.TcCoe Idealize.SL.Sem Idealize.ShloMosaic.StableHlo Idealize.ShloMosaic.ValueIdx
  Cert.ReferenceIdeal Cert.ReferenceIdeal.Gen Cert.ReferenceIdeal.Hand

variable {F : FTy → Type} [FloatOps F]

/-- The perceptron over all nodes, as the reference's operations %14 … %24 compose it. -/
def H2 (x a : FVec F S50000x128 .f32) (W1 : FVec F S128x256 .f32) (b1 : FVec F S256 .f32) (W2 : FVec F S256x128 .f32)
    (b2 : FVec F S128 .f32) : FVec F S50000x128 .f32 :=
  addf (Host.dotGeneral dot_S50000x256_S256x128_S50000x128_1_0_0_1_n_n none
      (maximumf (addf (Host.dotGeneral dot_S50000x128_S128x256_S50000x256_1_0_0_1_n_n none (addf x a) W1)
          (broadcastInDim S50000x256 ![0, 1] bcast_S1x256_S50000x256_0_1 (broadcastInDim S1x256 ![1] bcast_S256_S1x256_1 b1)))
        (broadcastInDim S50000x256 ![] bcast_S_S50000x256 (constant S_ .f32 0x00000000#32))) W2)
    (broadcastInDim S50000x128 ![0, 1] bcast_S1x128_S50000x128_0_1 (broadcastInDim S1x128 ![1] bcast_S128_S1x128_1 b2))

/-- The pooled sums, as the reference's operations %25 … %27 compose them: rows of `H` added by graph number into zeros. -/
def sums (batch : IVec S50000 32) (H : FVec F S50000x128 .f32) : FVec F S512x128 .f32 :=
  Host.scatterAdd scatter_S512x128_S50000x1_S50000x128_1_0_0_1 (broadcastInDim S512x128 ![] bcast_S_S512x128 (constant S_ .f32 0x00000000#32))
    (broadcastInDim S50000x1 ![0] bcast_S50000_S50000x1_0 batch) H

/-! ## The fold of the operations at the result and at the arguments -/

-- the gathers, scatters, reductions, quotients and roots stay folded while the two compositions are compared: the
-- equation never looks inside them (a matrix product is the float instance's own operation: there is nothing to open)
attribute [local irreducible] Host.reduceAdd Host.gather Host.scatterAdd Host.divf Host.sqrt in
set_option maxRecDepth 8192 in
set_option maxHeartbeats 1600000 in
/-- The fold of the ninety-two operations at the result buffer is the tail of the pooled sums of the perceptron of
    the features and their aggregated messages: each operation's result is its function at its operands' contents,
    and the composition is, term for term, the composition the specification functions name. -/
theorem out_eq (V : Valuation τ sig (Elt F)) :
    after ops V (main_v57 : DevRef τ sig)
      = Cert.Pool.tail (sums (V (main_arg2 : DevRef τ sig)) (H2 (V (main_arg0 : DevRef τ sig)) (Cert.Pool.agg (V (main_arg0 : DevRef τ sig)) (V (main_arg1 : DevRef τ sig)))
            (V (main_arg3 : DevRef τ sig)) (V (main_arg4 : DevRef τ sig)) (V (main_arg5 : DevRef τ sig)) (V (main_arg6 : DevRef τ sig))))
          (V (main_arg2 : DevRef τ sig)) (V (main_arg7 : DevRef τ sig)) (V (main_arg8 : DevRef τ sig)) := by
  after_results_simp
  rfl

/-! No operation writes an argument's buffer: the fold leaves each at its launch contents. -/

set_option maxRecDepth 8192 in
theorem arg0_eq (V : Valuation τ sig (Elt F)) :
    after ops V (main_arg0 : DevRef τ sig) = V (main_arg0 : DevRef τ sig) := by
  after_results_simp

set_option maxRecDepth 8192 in
theorem arg1_eq (V : Valuation τ sig (Elt F)) :
    after ops V (main_arg1 : DevRef τ sig) = V (main_arg1 : DevRef τ sig) := by
  after_results_simp

set_option maxRecDepth 8192 in
theorem arg2_eq (V : Valuation τ sig (Elt F)) :
    after ops V (main_arg2 : DevRef τ sig) = V (main_arg2 : DevRef τ sig) := by
  after_results_simp

set_option maxRecDepth 8192 in
theorem arg3_eq (V : Valuation τ sig (Elt F)) :
    after ops V (main_arg3 : DevRef τ sig) = V (main_arg3 : DevRef τ sig) := by
  after_results_simp

set_option maxRecDepth 8192 in
theorem arg4_eq (V : Valuation τ sig (Elt F)) :
    after ops V (main_arg4 : DevRef τ sig) = V (main_arg4 : DevRef τ sig) := by
  after_results_simp

set_option maxRecDepth 8192 in
theorem arg5_eq (V : Valuation τ sig (Elt F)) :
    after ops V (main_arg5 : DevRef τ sig) = V (main_arg5 : DevRef τ sig) := by
  after_results_simp

set_option maxRecDepth 8192 in
theorem arg6_eq (V : Valuation τ sig (Elt F)) :
    after ops V (main_arg6 : DevRef τ sig) = V (main_arg6 : DevRef τ sig) := by
  after_results_simp

set_option maxRecDepth 8192 in
theorem arg7_eq (V : Valuation τ sig (Elt F)) :
    after ops V (main_arg7 : DevRef τ sig) = V (main_arg7 : DevRef τ sig) := by
  after_results_simp

set_option maxRecDepth 8192 in
theorem arg8_eq (V : Valuation τ sig (Elt F)) :
    after ops V (main_arg8 : DevRef τ sig) = V (main_arg8 : DevRef τ sig) := by
  after_results_simp

/-! ## The run -/

/-- From any memory with zero counters every weakly fair execution of the reference terminates with its result
    buffer at the tail of the pooled sums of the perceptron, as functions of the memory's contents at the nine
    argument buffers, and with the nine argument buffers unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v57)
        = Cert.Pool.tail (sums (m ((c.tc : Thread nD τ).loc main_arg2)) (H2 (m ((c.tc : Thread nD τ).loc main_arg0)) (Cert.Pool.agg (m ((c.tc : Thread nD τ).loc main_arg0)) (m ((c.tc : Thread nD τ).loc main_arg1)))
              (m ((c.tc : Thread nD τ).loc main_arg3)) (m ((c.tc : Thread nD τ).loc main_arg4)) (m ((c.tc : Thread nD τ).loc main_arg5)) (m ((c.tc : Thread nD τ).loc main_arg6))))
            (m ((c.tc : Thread nD τ).loc main_arg2)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  exact (θ_run defs _ _).mono (fun _ h c => ⟨(h c main_v57).trans (out_eq (launchContents m c)),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _), (h c main_arg7).trans (arg7_eq _), (h c main_arg8).trans (arg8_eq _)⟩)
    (run_main m ρ)

/-! ## The perceptron and the pooled sums, entry by entry, on the extended reals -/

/-- A bias row broadcast to a leading unit axis and then along the rows, read at `(n, k)`, is the bias at `k`. -/
theorem bias_apply {R C : Nat} (hC : C ≠ 1) (h1 : (⟨1, ![C]⟩ : Shape).BroadcastsInDim ⟨2, ![1, C]⟩ (![1] : Fin 1 → Fin 2))
    (h2 : (⟨2, ![1, C]⟩ : Shape).BroadcastsInDim ⟨2, ![R, C]⟩ (![0, 1] : Fin 2 → Fin 2)) {α : Type}
    (b : (⟨1, ![C]⟩ : Shape).Idx → α) (n : Fin R) (k : Fin C) :
    broadcastInDim ⟨2, ![R, C]⟩ ![0, 1] h2 (broadcastInDim ⟨2, ![1, C]⟩ ![1] h1 b) (ix2 n k) = b (ix1 k) := by
  refine (broadcastInDim_apply _ h2 _ (ix2 n k) (ix2 (0 : Fin 1) k) fun a => ?_).trans
    (broadcastInDim_apply _ h1 b (ix2 (0 : Fin 1) k) (ix1 k) fun a => ?_)
  · match a with
    | ⟨0, _⟩ => rfl
    | ⟨1, _⟩ => exact (if_neg hC).symm
  · match a with
    | ⟨0, _⟩ => exact (if_neg hC).symm

/-- The zero word broadcast from a scalar, read anywhere at the ideal instance, is the real zero. -/
theorem zeros_apply {t : Shape} (h : S_.BroadcastsInDim t (![] : Fin 0 → Fin t.rank)) (j : t.Idx) :
    broadcastInDim t ![] h (constant (F := Ideal) S_ .f32 0x00000000#32) j = 0 := by
  refine (broadcastInDim_apply _ h _ j ix0 fun a => a.elim0).trans ?_
  rw [constant_apply, Ideal.ofBits_zero_f32]

/-- A vector broadcast to a trailing unit axis, read at `(k, 0)`, is the vector at `k`. -/
theorem col_apply {R : Nat} (hR : R ≠ 1) (h : (⟨1, ![R]⟩ : Shape).BroadcastsInDim ⟨2, ![R, 1]⟩ (![0] : Fin 1 → Fin 2)) {α : Type}
    (b : (⟨1, ![R]⟩ : Shape).Idx → α) (k : Fin R) :
    broadcastInDim ⟨2, ![R, 1]⟩ ![0] h b (ix2 k (0 : Fin 1)) = b (ix1 k) :=
  broadcastInDim_apply _ h b _ (ix1 k) fun a => match a with
    | ⟨0, _⟩ => (if_neg hR).symm

/-- The perceptron at node `n`, feature `d`: the second product's sum over the 256 hidden units of the rectified
    first layer (the first product's sum over the 128 features of `x + a`, plus the bias at the unit) times the
    weight, plus the bias at the feature.  The biases' two-step broadcasts read at `(n, k)` are the bias at `k`; the
    rectifier's zero matrix reads as the real zero. -/
theorem H2_apply (x a : FVec Ideal S50000x128 .f32) (W1 : FVec Ideal S128x256 .f32) (b1 : FVec Ideal S256 .f32)
    (W2 : FVec Ideal S256x128 .f32) (b2 : FVec Ideal S128 .f32) (n : Fin 50000) (d : Fin 128) :
    H2 (F := Ideal) x a W1 b1 W2 b2 (ix2 n d) = Cert.Pool.h2 x a W1 b1 W2 b2 n d := by
  unfold H2 Cert.Pool.h2
  rw [addf_apply, bias_apply (by decide), Cert.LibDot.dotGeneral_apply _ rfl rfl rfl rfl rfl rfl]
  refine congrArg (fun t : EReal => t + b2 (ix1 d)) (Finset.sum_congr rfl fun k _ => ?_)
  rw [maximumf_apply, addf_apply, bias_apply (by decide), zeros_apply, Cert.LibDot.dotGeneral_apply _ rfl rfl rfl rfl rfl rfl]
  rfl

/-- The pooled sums at graph `g`, feature `d`: the zero operand's entry plus the sum, over the nodes whose graph
    number (read signed) is `g`, of the node's entry at `d`. -/
theorem sums_apply (batch : IVec S50000 32) (H : FVec Ideal S50000x128 .f32) (g : Fin 512) (d : Fin 128) :
    sums (F := Ideal) batch H (ix2 g d) = 0 + Cert.Pool.pooled batch (fun n d' => H (ix2 n d')) g d := by
  unfold sums Cert.Pool.pooled
  rw [Cert.LibIndex.scatterAdd_row_apply_of _ rfl rfl rfl rfl, zeros_apply]
  refine congrArg (fun t : EReal => 0 + t) (Finset.sum_congr rfl fun k _ => ?_)
  rw [col_apply (by decide)]

end Cert.ReferenceIdeal.RefValue

end
-- ==== Proof.Finite.lean ====
/-
  From the precondition to "every float input is a real number".

  The precondition compares, for each float argument `v`, the absolute value `|v i|` with the word
  `0x7F800000` (which denotes `+∞`) elementwise by `<`, folds the comparison bits by `and` over all
  axes, and conjoins the results. At the ideal instance a float is an extended real, `|a| = max a (-a)`,
  and `max a (-a) < ⊤` excludes both `a = ⊤` and `a = ⊥`: what is left is a real number.
-/
import proofs.«404856_j52467320488062_3_alg».proof.Proof.Gen.Pre_finite_inputs
import Idealize.ShloMosaic.Lib.ReduceAll
import Idealize.ShloMosaic.Lib.IdealHost
import Mathlib.Data.EReal.Basic

namespace Cert.Finite

open Idealize.ShloMosaic Cert.Pre_finite_inputs

/-- The rank-0 shape has one index. -/
instance : Subsingleton S_.Idx := ⟨fun a b => funext fun d => d.elim0⟩

/-- The word `0x7F800000` denotes `+∞`. -/
theorem ofBits_inf : Ideal.ofBits .f32 0x7F800000#32 = (⊤ : EReal) := by
  simp [Ideal.ofBits, Ideal.ieee]

/-- An extended real whose absolute value `max a (-a)` compares below `+∞` is a real number. -/
theorem real_of_abs_lt_inf (a : EReal)
    (h : Ideal.cmp .olt (max a (-a)) (Ideal.ofBits .f32 0x7F800000#32) = 1#1) : ∃ r : ℝ, a = (r : EReal) := by
  rw [ofBits_inf] at h
  induction a using EReal.rec with
  | bot => simp [Ideal.cmp] at h
  | coe r => exact ⟨r, rfl⟩
  | top => simp [Ideal.cmp] at h

/-- An `and`-fold over all axes of the bits `|v i| < +∞` that came out `1`: every entry of `v` is real. -/
theorem all_real {s : Shape} {axes : List (Fin s.rank)} (hb : S_.BroadcastsInDim s (![] : Fin 0 → Fin s.rank))
    (hr : s.ReducesTo axes S_) (hu : 0 < S_.numel) (v : FVec Ideal s .f32)
    (e : Host.reduce IntOp.andi
          (cmpf .olt (Host.absf v) (broadcastInDim s ![] hb (constant (F := Ideal) S_ .f32 0x7F800000#32)))
          (constantI S_ 1 1#1) hr hu ValueIdx.ix0 = 1#1) :
    ∀ i, ∃ r : ℝ, v i = (r : EReal) := by
  intro i
  have hi := Host.reduce_andi_all _ _ hr hu ValueIdx.ix0 e i
  exact real_of_abs_lt_inf (v i) hi

theorem of_pre [Cert.Pre_finite_inputs.Facts]
    (x : FVec Ideal S50000x128 .f32) (ei : IVec S2x800000 32) (batch : IVec S50000 32) (W1 : FVec Ideal S128x256 .f32)
    (b1 : FVec Ideal S256 .f32) (W2 : FVec Ideal S256x128 .f32) (b2 : FVec Ideal S128 .f32) (gamma beta : FVec Ideal S128 .f32)
    (h : Cert.Pre_finite_inputs.fn (F := Ideal) x ei batch W1 b1 W2 b2 gamma beta = fun _ => 1#1) :
    (∀ i, ∃ r : ℝ, x i = (r : EReal)) ∧ (∀ i, ∃ r : ℝ, W1 i = (r : EReal)) ∧ (∀ i, ∃ r : ℝ, b1 i = (r : EReal))
      ∧ (∀ i, ∃ r : ℝ, W2 i = (r : EReal)) ∧ (∀ i, ∃ r : ℝ, b2 i = (r : EReal)) := by
  have h0 := congrFun h ValueIdx.ix0
  dsimp only [fn, fn_part1, andi] at h0
  obtain ⟨h1, -⟩ := IntOp.andi_eq_one.1 h0
  obtain ⟨h2, -⟩ := IntOp.andi_eq_one.1 h1
  obtain ⟨h3, hb2⟩ := IntOp.andi_eq_one.1 h2
  obtain ⟨h4, hW2⟩ := IntOp.andi_eq_one.1 h3
  obtain ⟨h5, hb1⟩ := IntOp.andi_eq_one.1 h4
  obtain ⟨hx, hW1⟩ := IntOp.andi_eq_one.1 h5
  exact ⟨all_real _ _ _ x hx, all_real _ _ _ W1 hW1, all_real _ _ _ b1 hb1, all_real _ _ _ W2 hW2,
    all_real _ _ _ b2 hb2⟩

end Cert.Finite
-- ==== Proof.lean ====
/-
  A graph block — message passing (the sources' rows of `x` added into the destinations' rows), a two-layer perceptron of
  `x` plus the messages, a mean pool per graph, a normalisation of each feature over the graphs, a clamp at zero — computed
  two ways, which agree on the extended reals for finite float inputs.

  The two programs share the message passing before the pooling and everything after it (`Cert.Pool.agg`, `Cert.Pool.tail`:
  Proof/Spec.lean), so the claim comes down to the pooled sums. The reference adds row n of the perceptron's output into
  row `batch n` of a zero matrix: entry (g, d) is zero plus the sum of `h n d` over the nodes n of graph g
  (Proof/RefValue.lean). The kernel walks the 50 tiles of 1000 nodes in two halves of 25; per tile it multiplies the 0/1
  matrix [g = batch n] into the tile's `h`, and into the remainder `h - h` of a split of `h` in two parts, and adds both products
  to a block that starts each half at zero; the host adds the two halves' blocks (Proof/KerBody.lean, KerBlocks.lean,
  KerAcc.lean, KerFinal.lean). For finite inputs `h` is a real number (the messages are finite sums of entries of `x`; sums,
  products and maxima of reals are real: Proof/Finite.lean, Law.lean), so `h - h = 0`, a 0/1 factor times `h` is `h` or `0`, and
  the sum over halves, tiles and rows is the sum over the nodes (Proof/Law.lean `pool_law`): the two pooled sums are equal,
  entry by entry. The kernel's idealization rewrote one widening of a narrowed value to the value itself: the ledger's one
  entry.
-/
import proofs.«404856_j52467320488062_3_alg».proof.Defs
import proofs.«404856_j52467320488062_3_alg».proof.Proof.Gen.Kernel
import proofs.«404856_j52467320488062_3_alg».proof.Proof.Gen.KernelIdeal
import proofs.«404856_j52467320488062_3_alg».proof.Proof.Gen.ReferenceIdeal
import proofs.«404856_j52467320488062_3_alg».proof.Proof.Gen.Pre_finite_inputs
import proofs.«404856_j52467320488062_3_alg».proof.Proof.Patched.Kernel.Frame
import proofs.«404856_j52467320488062_3_alg».proof.Proof.Patched.KernelIdeal.Frame
import proofs.«404856_j52467320488062_3_alg».proof.Proof.KerFinal
import proofs.«404856_j52467320488062_3_alg».proof.Proof.KerAcc
import proofs.«404856_j52467320488062_3_alg».proof.Proof.RefValue
import proofs.«404856_j52467320488062_3_alg».proof.Proof.Finite
import proofs.«404856_j52467320488062_3_alg».proof.Proof.Law
import Idealize.ShloMosaic.Adequacy
import Idealize.ShloMosaic.Init

noncomputable section

namespace Cert.Proof

open Idealize.ShloMosaic Idealize.ShloMosaic.ValueIdx Idealize.SL.Sem

/-- The kernel as printed runs, its arguments unchanged. -/
theorem frame_k : Cert.frame_Kernel := fun m ρ _ => Cert.Kernel.GenP.frame m ρ

/-- So does its idealization. -/
theorem frame_ki : Cert.frame_KernelIdeal := fun m ρ _ => Cert.KernelIdeal.GenP.frame m ρ

/-- So does the reference: its run, with the result dropped. -/
theorem frame_ri : Cert.frame_ReferenceIdeal := fun m ρ _ =>
  (θ_run Cert.ReferenceIdeal.defs _ _).mono (fun _ h c => (h c).2) (Cert.ReferenceIdeal.RefValue.run (F := Ideal) m ρ)

/-- The ledger's one entry: widening a value narrowed to bf16 is the identity on the extended reals. -/
theorem preserves : Cert.preserves_Kernel_KernelIdeal := IdealRules.truncf_extf.statement _ .f32 .bf16

/-- For finite inputs the perceptron over the launch contents is real-valued: the messages are real (finite sums of
    entries of `x`), and sums, products and maxima of reals are real. -/
theorem H_real (m : (ℓ : Loc Cert.KernelIdeal.nD Cert.KernelIdeal.τ Cert.KernelIdeal.sig) → Buf (Elt Ideal) ℓ)
    (hpre : Cert.Pre_KernelIdeal m) (c : Dev Cert.KernelIdeal.nD) (n : Fin 50000) (d : Fin 128) :
    Cert.Law.IsReal (Cert.KernelIdeal.Acc.H m c n d) := by
  obtain ⟨hx, hW1, hb1, hW2, hb2⟩ := Cert.Finite.of_pre _ _ _ _ _ _ _ _ _ (hpre c)
  exact Cert.Law.h2_real _ _ _ _ _ _ hx (Cert.Law.agg_real _ _ hx) hW1 hb1 hW2 hb2 n d

/-- The two programs' results are one function of the arguments: the shared tail of equal pooled sums. -/
theorem algebraic : Cert.algebraic_KernelIdeal_ReferenceIdeal := by
  intro m ρ m' ρ' hpre hagree
  refine ⟨fun c => Cert.Pool.tail (F := Ideal) (Cert.KernelIdeal.Final.sums (F := Ideal) (Cert.KernelIdeal.Final.halves m c))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)),
    Cert.KernelIdeal.Final.run m ρ, ?_⟩
  refine (θ_run Cert.ReferenceIdeal.defs _ _).mono (fun _ h c => ⟨(h c).1.trans ?_, (h c).2⟩)
    (Cert.ReferenceIdeal.RefValue.run (F := Ideal) m' ρ')
  obtain ⟨e0, e1, e2, e3, e4, e5, e6, e7, e8⟩ := hagree c
  rw [e0, e1, e2, e3, e4, e5, e6, e7, e8]
  refine congrArg (fun s => Cert.Pool.tail (F := Ideal) s _ _ _) (funext fun j => ?_)
  obtain ⟨g, d, rfl⟩ : ∃ (g : Fin 512) (d : Fin 128), j = ix2 g d := ⟨j 0, j 1, eq_ix2 j⟩
  refine (Cert.ReferenceIdeal.RefValue.sums_apply _ _ g d).trans ?_
  refine Eq.trans ?_ (Cert.KernelIdeal.Acc.sums_eq_pooled m c (H_real m hpre c) g d).symm
  refine congrArg (fun x : EReal => 0 + x) ?_
  unfold Cert.Pool.pooled
  exact Finset.sum_congr rfl fun n _ => if_congr Iff.rfl (Cert.ReferenceIdeal.RefValue.H2_apply _ _ _ _ _ _ n d) rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
